-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x16 : Shape := ⟨2, ![32768, 16]⟩
abbrev S256x16 : Shape := ⟨2, ![256, 16]⟩
abbrev S256 : Shape := ⟨1, ![256]⟩
abbrev S256x256 : Shape := ⟨2, ![256, 256]⟩
abbrev S3x256 : Shape := ⟨2, ![3, 256]⟩
abbrev S3x256x256 : Shape := ⟨3, ![3, 256, 256]⟩
abbrev S1x256 : Shape := ⟨2, ![1, 256]⟩
abbrev S1 : Shape := ⟨1, ![1]⟩
abbrev S_ : Shape := ⟨0, ![]⟩

class Facts : Prop where
  bcast_S_S32768x16 : S_.BroadcastsInDim S32768x16 (![] : Fin 0 → Fin S32768x16.rank)
  reducesTo_S32768x16_S_d0_1 : S32768x16.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3x256 : S_.BroadcastsInDim S3x256 (![] : Fin 0 → Fin S3x256.rank)
  reducesTo_S3x256_S_d0_1 : S3x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S3x256 .f32) (main_arg8 : FVec F S3x256x256 .f32) (main_arg9 : FVec F S3x256 .f32) (main_arg10 : FVec F S1x256 .f32) (main_arg11 : FVec F S1 .f32) (main_v33 : IVec S_ 1) : IVec S_ 1 :=
  let main_v34 : FVec F S3x256 .f32 := Host.absf main_arg7
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg8
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg9
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_arg11 main_v48 main_v49 main_v50

def fn_part1 {F : FTy → Type} [FloatOps F] (main_arg4 : FVec F S256 .f32) (main_arg5 : FVec F S3x256 .f32) (main_arg6 : FVec F S3x256x256 .f32) (main_arg7 : FVec F S3x256 .f32) (main_arg8 : FVec F S3x256x256 .f32) (main_arg9 : FVec F S3x256 .f32) (main_arg10 : FVec F S1x256 .f32) (main_arg11 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256 .f32 := Host.absf main_arg5
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256x256 .f32 := Host.absf main_arg6
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32768x16 .f32) (main_arg1 : FVec F S256x16 .f32) (main_arg2 : FVec F S256 .f32) (main_arg3 : FVec F S256x256 .f32) (main_arg4 : FVec F S256 .f32) (main_arg5 : FVec F S3x256 .f32) (main_arg6 : FVec F S3x256x256 .f32) (main_arg7 : FVec F S3x256 .f32) (main_arg8 : FVec F S3x256x256 .f32) (main_arg9 : FVec F S3x256 .f32) (main_arg10 : FVec F S1x256 .f32) (main_arg11 : FVec F S1 .f32) : IVec S_ 1 :=
  let main_v0 : FVec F S32768x16 .f32 := Host.absf main_arg0
  let main_cst : FVec F S_ .f32 := constant S_ .f32 0x7F800000#32
  let main_v1 : FVec F S32768x16 .f32 := broadcastInDim S32768x16 ![] bcast_S_S32768x16 main_cst
  let main_v2 : IVec S32768x16 1 := cmpf .olt main_v0 main_v1
  let main_c : IVec S_ 1 := constantI S_ 1 1#1
  let main_v3 : IVec S_ 1 := (fun x v => Host.reduce IntOp.andi x v reducesTo_S32768x16_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_v13 main_v16
-- ==== Kernel.lean ====
abbrev S32768x16 : Shape := ⟨2, ![32768, 16]⟩
abbrev S256x16 : Shape := ⟨2, ![256, 16]⟩
abbrev S256 : Shape := ⟨1, ![256]⟩
abbrev S256x256 : Shape := ⟨2, ![256, 256]⟩
abbrev S3x256 : Shape := ⟨2, ![3, 256]⟩
abbrev S3x256x256 : Shape := ⟨3, ![3, 256, 256]⟩
abbrev S1x256 : Shape := ⟨2, ![1, 256]⟩
abbrev S1 : Shape := ⟨1, ![1]⟩
abbrev S1x1 : Shape := ⟨2, ![1, 1]⟩
abbrev S32768x3 : Shape := ⟨2, ![32768, 3]⟩
abbrev S1024x16 : Shape := ⟨2, ![1024, 16]⟩
abbrev S1024x3 : Shape := ⟨2, ![1024, 3]⟩
abbrev S16x256 : Shape := ⟨2, ![16, 256]⟩
abbrev S1024x256 : Shape := ⟨2, ![1024, 256]⟩
abbrev S1x256x256 : Shape := ⟨3, ![1, 256, 256]⟩
abbrev S256x1 : Shape := ⟨2, ![256, 1]⟩
abbrev S1024x1 : Shape := ⟨2, ![1024, 1]⟩

abbrev nBuf : Space → Nat
  | .hbm => 16
  | .vmem => 15
  | .smem => 0
  | _ => 0

abbrev bufTy : (tb : Table) → Fin (tcTables nBuf tb) → BufTy
  | .hbm, ⟨0, _⟩ => ⟨S32768x16, .f32⟩
  | .hbm, ⟨1, _⟩ => ⟨S256x16, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S3x256, .f32⟩
  | .hbm, ⟨6, _⟩ => ⟨S3x256x256, .f32⟩
  | .hbm, ⟨7, _⟩ => ⟨S3x256, .f32⟩
  | .hbm, ⟨8, _⟩ => ⟨S3x256x256, .f32⟩
  | .hbm, ⟨9, _⟩ => ⟨S3x256, .f32⟩
  | .hbm, ⟨10, _⟩ => ⟨S1x256, .f32⟩
  | .hbm, ⟨11, _⟩ => ⟨S1, .f32⟩
  | .hbm, ⟨12, _⟩ => ⟨S1x256, .f32⟩
  | .hbm, ⟨13, _⟩ => ⟨S1x256, .f32⟩
  | .hbm, ⟨14, _⟩ => ⟨S1x1, .f32⟩
  | .hbm, ⟨15, _⟩ => ⟨S32768x3, .f32⟩
  | .local _ .vmem, ⟨0, _⟩ => ⟨S1024x16, .f32⟩
  | .local _ .vmem, ⟨1, _⟩ => ⟨S1024x16, .f32⟩
  | .local _ .vmem, ⟨2, _⟩ => ⟨S256x16, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S3x256, .f32⟩
  | .local _ .vmem, ⟨7, _⟩ => ⟨S3x256x256, .f32⟩
  | .local _ .vmem, ⟨8, _⟩ => ⟨S3x256, .f32⟩
  | .local _ .vmem, ⟨9, _⟩ => ⟨S3x256x256, .f32⟩
  | .local _ .vmem, ⟨10, _⟩ => ⟨S3x256, .f32⟩
  | .local _ .vmem, ⟨11, _⟩ => ⟨S1x256, .f32⟩
  | .local _ .vmem, ⟨12, _⟩ => ⟨S1x1, .f32⟩
  | .local _ .vmem, ⟨13, _⟩ => ⟨S1024x3, .f32⟩
  | .local _ .vmem, ⟨14, _⟩ => ⟨S1024x3, .f32⟩
  | _, _ => ⟨S32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S256_S1x256 : S256.ShapeCasts S1x256
  shapeCasts_S1_S1x1 : S1.ShapeCasts S1x1
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  transposes_S256x16_p1_0_S16x256 : S256x16.Transposes [1, 0] S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S3x256_S1x256_0_0 : ∀ a, (![0, 0] : Fin 2 → Nat) a + S1x256.size a ≤ S3x256.size a
  shapeCasts_S1x256_S256 : S1x256.ShapeCasts S256
  inb_S3x256_S1x256_1_0 : ∀ a, (![1, 0] : Fin 2 → Nat) a + S1x256.size a ≤ S3x256.size a
  inb_S3x256_S1x256_2_0 : ∀ a, (![2, 0] : Fin 2 → Nat) a + S1x256.size a ≤ S3x256.size a
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_1_0_0 : ∀ a, (![1, 0, 0] : Fin 3 → Nat) a + S1x256x256.size a ≤ S3x256x256.size a
  inb_S3x256x256_S1x256x256_2_0_0 : ∀ a, (![2, 0, 0] : Fin 3 → Nat) a + S1x256x256.size a ≤ S3x256x256.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x256_p1_0_S256x1 : S1x256.Transposes [1, 0] S256x1
  broadcasts_S1x1_S1024x1 : S1x1.Broadcasts S1024x1
  concatenates_S1024x1_S1024x1_S1024x1_S1024x3_d1 : Shape.Concatenates [S1024x1, S1024x1, S1024x1] S1024x3 1
  inb_S1024x3_S1024x3_0_0 : ∀ a, (![0, 0] : Fin 2 → Nat) a + S1024x3.size a ≤ S1024x3.size a
  h_S1024x3 : 0 < S1024x3.numel
  dot_S1024x16_S16x256_S1024x256_1_0_0_1_n_n_wf : DotDims.WF S1024x16 S16x256 S1024x256 [1] [0] [0] [1] [] []
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S32768x16.size a
  hwx0_0 : ∀ i : grid0.Coords, EltTy.bits .f32 = 32 ∨ (Rect.block (s := S32768x16) S1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x256.size a
  hwx0_5 : ∀ i : grid0.Coords, EltTy.bits .f32 = 32 ∨ (Rect.block (s := S3x256) S3x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x256x256.size a ≤ S3x256x256.size a
  hwx0_6 : ∀ i : grid0.Coords, EltTy.bits .f32 = 32 ∨ (Rect.block (s := S3x256x256) S3x256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x256.size a ≤ S3x256.size a
  hwx0_7 : ∀ i : grid0.Coords, EltTy.bits .f32 = 32 ∨ (Rect.block (s := S3x256) S3x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x256x256.size a ≤ S3x256x256.size a
  hwx0_8 : ∀ i : grid0.Coords, EltTy.bits .f32 = 32 ∨ (Rect.block (s := S3x256x256) S3x256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x256.size a ≤ S3x256.size a
  hwx0_9 : ∀ i : grid0.Coords, EltTy.bits .f32 = 32 ∨ (Rect.block (s := S3x256) S3x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x3.size a ≤ S32768x3.size a
  hwx0_12 : ∀ i : grid0.Coords, EltTy.bits .f32 = 32 ∨ (Rect.block (s := S32768x3) S1024x3.size (cc0_transform_12 i) (hinb0_12 i)).WholeWords (EltTy.packing .f32)

variable [Facts₀]

def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1024x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x16 : Shape := ⟨2, ![32768, 16]⟩
abbrev S256x16 : Shape := ⟨2, ![256, 16]⟩
abbrev S256 : Shape := ⟨1, ![256]⟩
abbrev S256x256 : Shape := ⟨2, ![256, 256]⟩
abbrev S3x256 : Shape := ⟨2, ![3, 256]⟩
abbrev S3x256x256 : Shape := ⟨3, ![3, 256, 256]⟩
abbrev S1x256 : Shape := ⟨2, ![1, 256]⟩
abbrev S1 : Shape := ⟨1, ![1]⟩
abbrev S16x256 : Shape := ⟨2, ![16, 256]⟩
abbrev S32768x256 : Shape := ⟨2, ![32768, 256]⟩
abbrev S_ : Shape := ⟨0, ![]⟩
abbrev S1x3x256 : Shape := ⟨3, ![1, 3, 256]⟩
abbrev S32768x1x256 : Shape := ⟨3, ![32768, 1, 256]⟩
abbrev S32768x3x256 : Shape := ⟨3, ![32768, 3, 256]⟩
abbrev S1x256x256 : Shape := ⟨3, ![1, 256, 256]⟩
abbrev S1x1x256 : Shape := ⟨3, ![1, 1, 256]⟩
abbrev S32768x3x1 : Shape := ⟨3, ![32768, 3, 1]⟩
abbrev S1x1x1 : Shape := ⟨3, ![1, 1, 1]⟩
abbrev S32768x3 : Shape := ⟨2, ![32768, 3]⟩

abbrev nBuf : Space → Nat
  | .hbm => 122
  | .vmem => 0
  | .smem => 0
  | _ => 0

abbrev bufTy : (tb : Table) → Fin (tcTables nBuf tb) → BufTy
  | .hbm, ⟨0, _⟩ => ⟨S32768x16, .f32⟩
  | .hbm, ⟨1, _⟩ => ⟨S256x16, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S3x256, .f32⟩
  | .hbm, ⟨6, _⟩ => ⟨S3x256x256, .f32⟩
  | .hbm, ⟨7, _⟩ => ⟨S3x256, .f32⟩
  | .hbm, ⟨8, _⟩ => ⟨S3x256x256, .f32⟩
  | .hbm, ⟨9, _⟩ => ⟨S3x256, .f32⟩
  | .hbm, ⟨10, _⟩ => ⟨S1x256, .f32⟩
  | .hbm, ⟨11, _⟩ => ⟨S1, .f32⟩
  | .hbm, ⟨12, _⟩ => ⟨S16x256, .f32⟩
  | .hbm, ⟨13, _⟩ => ⟨S32768x256, .f32⟩
  | .hbm, ⟨14, _⟩ => ⟨S1x256, .f32⟩
  | .hbm, ⟨15, _⟩ => ⟨S32768x256, .f32⟩
  | .hbm, ⟨16, _⟩ => ⟨S32768x256, .f32⟩
  | .hbm, ⟨17, _⟩ => ⟨S_, .f32⟩
  | .hbm, ⟨18, _⟩ => ⟨S32768x256, .f32⟩
  | .hbm, ⟨19, _⟩ => ⟨S32768x256, .f32⟩
  | .hbm, ⟨20, _⟩ => ⟨S256x256, .f32⟩
  | .hbm, ⟨21, _⟩ => ⟨S32768x256, .f32⟩
  | .hbm, ⟨22, _⟩ => ⟨S1x256, .f32⟩
  | .hbm, ⟨23, _⟩ => ⟨S32768x256, .f32⟩
  | .hbm, ⟨24, _⟩ => ⟨S32768x256, .f32⟩
  | .hbm, ⟨25, _⟩ => ⟨S_, .f32⟩
  | .hbm, ⟨26, _⟩ => ⟨S32768x256, .f32⟩
  | .hbm, ⟨27, _⟩ => ⟨S32768x256, .f32⟩
  | .hbm, ⟨28, _⟩ => ⟨S1x3x256, .f32⟩
  | .hbm, ⟨29, _⟩ => ⟨S32768x1x256, .f32⟩
  | .hbm, ⟨30, _⟩ => ⟨S32768x3x256, .f32⟩
  | .hbm, ⟨31, _⟩ => ⟨S32768x3x256, .f32⟩
  | .hbm, ⟨32, _⟩ => ⟨S32768x3x256, .f32⟩
  | .hbm, ⟨33, _⟩ => ⟨S_, .f32⟩
  | .hbm, ⟨34, _⟩ => ⟨S32768x256, .f32⟩
  | .hbm, ⟨35, _⟩ => ⟨S32768x1x256, .f32⟩
  | .hbm, ⟨36, _⟩ => ⟨S32768x3x256, .f32⟩
  | .hbm, ⟨37, _⟩ => ⟨S32768x3x256, .f32⟩
  | .hbm, ⟨38, _⟩ => ⟨S32768x3x256, .f32⟩
  | .hbm, ⟨39, _⟩ => ⟨S1x256x256, .f32⟩
  | .hbm, ⟨40, _⟩ => ⟨S256x256, .f32⟩
  | .hbm, ⟨41, _⟩ => ⟨S32768x3x256, .f32⟩
  | .hbm, ⟨42, _⟩ => ⟨S1x256, .f32⟩
  | .hbm, ⟨43, _⟩ => ⟨S256, .f32⟩
  | .hbm, ⟨44, _⟩ => ⟨S1x1x256, .f32⟩
  | .hbm, ⟨45, _⟩ => ⟨S32768x3x256, .f32⟩
  | .hbm, ⟨46, _⟩ => ⟨S32768x3x256, .f32⟩
  | .hbm, ⟨47, _⟩ => ⟨S_, .f32⟩
  | .hbm, ⟨48, _⟩ => ⟨S32768x3x256, .f32⟩
  | .hbm, ⟨49, _⟩ => ⟨S32768x3x256, .f32⟩
  | .hbm, ⟨50, _⟩ => ⟨S1x256x256, .f32⟩
  | .hbm, ⟨51, _⟩ => ⟨S256x256, .f32⟩
  | .hbm, ⟨52, _⟩ => ⟨S32768x3x256, .f32⟩
  | .hbm, ⟨53, _⟩ => ⟨S1x256, .f32⟩
  | .hbm, ⟨54, _⟩ => ⟨S256, .f32⟩
  | .hbm, ⟨55, _⟩ => ⟨S1x1x256, .f32⟩
  | .hbm, ⟨56, _⟩ => ⟨S32768x3x256, .f32⟩
  | .hbm, ⟨57, _⟩ => ⟨S32768x3x256, .f32⟩
  | .hbm, ⟨58, _⟩ => ⟨S_, .f32⟩
  | .hbm, ⟨59, _⟩ => ⟨S32768x3x256, .f32⟩
  | .hbm, ⟨60, _⟩ => ⟨S32768x3x256, .f32⟩
  | .hbm, ⟨61, _⟩ => ⟨S_, .f32⟩
  | .hbm, ⟨62, _⟩ => ⟨S32768x256, .f32⟩
  | .hbm, ⟨63, _⟩ => ⟨S32768x1x256, .f32⟩
  | .hbm, ⟨64, _⟩ => ⟨S32768x3x256, .f32⟩
  | .hbm, ⟨65, _⟩ => ⟨S32768x3x256, .f32⟩
  | .hbm, ⟨66, _⟩ => ⟨S32768x3x256, .f32⟩
  | .hbm, ⟨67, _⟩ => ⟨S1x256x256, .f32⟩
  | .hbm, ⟨68, _⟩ => ⟨S256x256, .f32⟩
  | .hbm, ⟨69, _⟩ => ⟨S32768x3x256, .f32⟩
  | .hbm, ⟨70, _⟩ => ⟨S1x256, .f32⟩
  | .hbm, ⟨71, _⟩ => ⟨S256, .f32⟩
  | .hbm, ⟨72, _⟩ => ⟨S1x1x256, .f32⟩
  | .hbm, ⟨73, _⟩ => ⟨S32768x3x256, .f32⟩
  | .hbm, ⟨74, _⟩ => ⟨S32768x3x256, .f32⟩
  | .hbm, ⟨75, _⟩ => ⟨S_, .f32⟩
  | .hbm, ⟨76, _⟩ => ⟨S32768x3x256, .f32⟩
  | .hbm, ⟨77, _⟩ => ⟨S32768x3x256, .f32⟩
  | .hbm, ⟨78, _⟩ => ⟨S1x256x256, .f32⟩
  | .hbm, ⟨79, _⟩ => ⟨S256x256, .f32⟩
  | .hbm, ⟨80, _⟩ => ⟨S32768x3x256, .f32⟩
  | .hbm, ⟨81, _⟩ => ⟨S1x256, .f32⟩
  | .hbm, ⟨82, _⟩ => ⟨S256, .f32⟩
  | .hbm, ⟨83, _⟩ => ⟨S1x1x256, .f32⟩
  | .hbm, ⟨84, _⟩ => ⟨S32768x3x256, .f32⟩
  | .hbm, ⟨85, _⟩ => ⟨S32768x3x256, .f32⟩
  | .hbm, ⟨86, _⟩ => ⟨S_, .f32⟩
  | .hbm, ⟨87, _⟩ => ⟨S32768x3x256, .f32⟩
  | .hbm, ⟨88, _⟩ => ⟨S32768x3x256, .f32⟩
  | .hbm, ⟨89, _⟩ => ⟨S_, .f32⟩
  | .hbm, ⟨90, _⟩ => ⟨S32768x256, .f32⟩
  | .hbm, ⟨91, _⟩ => ⟨S32768x1x256, .f32⟩
  | .hbm, ⟨92, _⟩ => ⟨S32768x3x256, .f32⟩
  | .hbm, ⟨93, _⟩ => ⟨S32768x3x256, .f32⟩
  | .hbm, ⟨94, _⟩ => ⟨S32768x3x256, .f32⟩
  | .hbm, ⟨95, _⟩ => ⟨S1x256x256, .f32⟩
  | .hbm, ⟨96, _⟩ => ⟨S256x256, .f32⟩
  | .hbm, ⟨97, _⟩ => ⟨S32768x3x256, .f32⟩
  | .hbm, ⟨98, _⟩ => ⟨S1x256, .f32⟩
  | .hbm, ⟨99, _⟩ => ⟨S256, .f32⟩
  | .hbm, ⟨100, _⟩ => ⟨S1x1x256, .f32⟩
  | .hbm, ⟨101, _⟩ => ⟨S32768x3x256, .f32⟩
  | .hbm, ⟨102, _⟩ => ⟨S32768x3x256, .f32⟩
  | .hbm, ⟨103, _⟩ => ⟨S_, .f32⟩
  | .hbm, ⟨104, _⟩ => ⟨S32768x3x256, .f32⟩
  | .hbm, ⟨105, _⟩ => ⟨S32768x3x256, .f32⟩
  | .hbm, ⟨106, _⟩ => ⟨S1x256x256, .f32⟩
  | .hbm, ⟨107, _⟩ => ⟨S256x256, .f32⟩
  | .hbm, ⟨108, _⟩ => ⟨S32768x3x256, .f32⟩
  | .hbm, ⟨109, _⟩ => ⟨S1x256, .f32⟩
  | .hbm, ⟨110, _⟩ => ⟨S256, .f32⟩
  | .hbm, ⟨111, _⟩ => ⟨S1x1x256, .f32⟩
  | .hbm, ⟨112, _⟩ => ⟨S32768x3x256, .f32⟩
  | .hbm, ⟨113, _⟩ => ⟨S32768x3x256, .f32⟩
  | .hbm, ⟨114, _⟩ => ⟨S_, .f32⟩
  | .hbm, ⟨115, _⟩ => ⟨S32768x3x256, .f32⟩
  | .hbm, ⟨116, _⟩ => ⟨S32768x3x256, .f32⟩
  | .hbm, ⟨117, _⟩ => ⟨S32768x3x1, .f32⟩
  | .hbm, ⟨118, _⟩ => ⟨S1x1x1, .f32⟩
  | .hbm, ⟨119, _⟩ => ⟨S32768x3x1, .f32⟩
  | .hbm, ⟨120, _⟩ => ⟨S32768x3x1, .f32⟩
  | .hbm, ⟨121, _⟩ => ⟨S32768x3, .f32⟩
  | _, _ => ⟨S32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call2_cst : Ref sig .tc := ⟨.hbm, 47, rfl⟩
abbrev main_call2_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_cst : Ref sig .tc := ⟨.hbm, 58, rfl⟩
abbrev main_call3_v0 : Ref sig .tc := ⟨.hbm, 59, rfl⟩
abbrev main_v39 : Ref sig .tc := ⟨.hbm, 60, rfl⟩
abbrev main_cst_0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call4_cst : Ref sig .tc := ⟨.hbm, 75, rfl⟩
abbrev main_call4_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call5_cst : Ref sig .tc := ⟨.hbm, 86, rfl⟩
abbrev main_call5_v0 : Ref sig .tc := ⟨.hbm, 87, rfl⟩
abbrev main_v62 : Ref sig .tc := ⟨.hbm, 88, rfl⟩
abbrev main_cst_1 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call6_cst : Ref sig .tc := ⟨.hbm, 103, rfl⟩
abbrev main_call6_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call7_cst : Ref sig .tc := ⟨.hbm, 114, rfl⟩
abbrev main_call7_v0 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]

class Facts₀ : Prop where
  transposes_S256x16_S16x256_1_0 : S256x16.Transposes [1, 0] S16x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S256x256_S256x256_1_0 : S256x256.Transposes [1, 0] S256x256
  bcast_S3x256_S1x3x256_1_2 : S3x256.BroadcastsInDim S1x3x256 (![1, 2] : Fin 2 → Fin S1x3x256.rank)
  bcast_S32768x256_S32768x1x256_0_2 : S32768x256.BroadcastsInDim S32768x1x256 (![0, 2] : Fin 2 → Fin S32768x1x256.rank)
  bcast_S1x3x256_S32768x3x256_0_1_2 : S1x3x256.BroadcastsInDim S32768x3x256 (![0, 1, 2] : Fin 3 → Fin S32768x3x256.rank)
  bcast_S32768x1x256_S32768x3x256_0_1_2 : S32768x1x256.BroadcastsInDim S32768x3x256 (![0, 1, 2] : Fin 3 → Fin S32768x3x256.rank)
  reducesTo_S32768x3x256_S32768x256_d1 : S32768x3x256.ReducesTo [1] S32768x256
  h_S_ : 0 < S_.numel
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S32768x3x256_0_1_2 : S1x1x256.BroadcastsInDim S32768x3x256 (![0, 1, 2] : Fin 3 → Fin S32768x3x256.rank)
  bcast_S_S32768x3x256 : S_.BroadcastsInDim S32768x3x256 (![] : Fin 0 → Fin S32768x3x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S1_S1x1x1_2 : S1.BroadcastsInDim S1x1x1 (![2] : Fin 1 → Fin S1x1x1.rank)
  bcast_S1x1x1_S32768x3x1_0_1_2 : S1x1x1.BroadcastsInDim S32768x3x1 (![0, 1, 2] : Fin 3 → Fin S32768x3x1.rank)
  shapeCasts_S32768x3x1_S32768x3 : S32768x3x1.ShapeCasts S32768x3
  dot_S32768x16_S16x256_S32768x256_1_0_0_1_n_n_wf : DotDims.WF S32768x16 S16x256 S32768x256 [1] [0] [0] [1] [] []
  dot_S32768x256_S256x256_S32768x256_1_0_0_1_n_n_wf : DotDims.WF S32768x256 S256x256 S32768x256 [1] [0] [0] [1] [] []
  dot_S32768x3x256_S256x256_S32768x3x256_2_1_01_0_n_n_wf : DotDims.WF S32768x3x256 S256x256 S32768x3x256 [2] [1] [0, 1] [0] [] []
  dot_S32768x3x256_S1x256_S32768x3x1_2_1_01_0_n_n_wf : DotDims.WF S32768x3x256 S1x256 S32768x3x1 [2] [1] [0, 1] [0] [] []

variable [Facts₀]

def dot_S32768x16_S16x256_S32768x256_1_0_0_1_n_n : DotDims S32768x16 S16x256 S32768x256 where
  lhsContracting := [1]
  rhsContracting := [0]
  lhsNonContracting := [0]
  rhsNonContracting := [1]
  lhsBatch := []
  rhsBatch := []
  wf := dot_S32768x16_S16x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x3x256_S256x256_S32768x3x256_2_1_01_0_n_n : DotDims S32768x3x256 S256x256 S32768x3x256 where
  lhsContracting := [2]
  rhsContracting := [1]
  lhsNonContracting := [0, 1]
  rhsNonContracting := [0]
  lhsBatch := []
  rhsBatch := []
  wf := dot_S32768x3x256_S256x256_S32768x3x256_2_1_01_0_n_n_wf
def dot_S32768x3x256_S1x256_S32768x3x1_2_1_01_0_n_n : DotDims S32768x3x256 S1x256 S32768x3x1 where
  lhsContracting := [2]
  rhsContracting := [1]
  lhsNonContracting := [0, 1]
  rhsNonContracting := [0]
  lhsBatch := []
  rhsBatch := []
  wf := dot_S32768x3x256_S1x256_S32768x3x1_2_1_01_0_n_n_wf

class Facts : Prop extends Facts₀ where

variable [Facts]
-- ==== Proof.Spec.lean ====
/-
  The row function both programs compute.

  Every output row depends on one input row only.  For a row `xr` of 16 numbers the network is:
  two dense layers with a rectifier each (16 → 256 → 256), giving `e`; three node vectors `e + init j`; three rounds in
  which node `j` is replaced by  relu (W₂ · relu (W₁ · h + b₁) + b₂)  with  h = n j + ((n 0 + n 1 + n 2) − n j);
  and a one-column decoder  ⟨n j, dw⟩ + db  per node.  All of it on the extended reals, a dense layer being
  `o ↦ (∑ k, v k * w o k) + b o` (the weight matrix is stored output-major, so it is read transposed).
-/
import Idealize.ShloMosaic.PureOps.Ideal
import Idealize.ShloMosaic.Lib.ValueIdx

noncomputable section

namespace Cert.Gnn

open Idealize.ShloMosaic Idealize.ShloMosaic.ValueIdx

/-- A dense layer on one row: `o ↦ (∑ k, v k * w o k) + b o`. -/
def dense {K N : ℕ} (w : Fin N → Fin K → EReal) (b : Fin N → EReal) (v : Fin K → EReal) : Fin N → EReal :=
  fun o => (∑ k, v k * w o k) + b o

/-- The rectifier, entry by entry. -/
def relu {N : ℕ} (v : Fin N → EReal) : Fin N → EReal := fun o => max (v o) 0

/-- The sum of the three node vectors, grouped from the left. -/
def total (n : Fin 3 → Fin 256 → EReal) : Fin 256 → EReal := fun o => (n 0 o + n 1 o) + n 2 o

/-- What node `j`'s layer reads: the node plus the sum of its two neighbours, the latter written as the total minus the node. -/
def mix (n : Fin 3 → Fin 256 → EReal) (j : Fin 3) : Fin 256 → EReal := fun o => n j o + (total n o - n j o)

/-- The first half of a round's two-layer perceptron at node `j`. -/
def half (w1 : Fin 256 → Fin 256 → EReal) (b1 : Fin 256 → EReal) (n : Fin 3 → Fin 256 → EReal) (j : Fin 3) :
    Fin 256 → EReal := relu (dense w1 b1 (mix n j))

/-- One round: every node replaced by the rectified perceptron of its mix. -/
def round (w1 : Fin 256 → Fin 256 → EReal) (b1 : Fin 256 → EReal) (w2 : Fin 256 → Fin 256 → EReal) (b2 : Fin 256 → EReal)
    (n : Fin 3 → Fin 256 → EReal) : Fin 3 → Fin 256 → EReal := fun j => relu (dense w2 b2 (half w1 b1 n j))

/-- The network's weights, as plain functions of coordinates. -/
structure Params where
  w0 : Fin 256 → Fin 16 → EReal
  b0 : Fin 256 → EReal
  w1 : Fin 256 → Fin 256 → EReal
  b1 : Fin 256 → EReal
  init : Fin 3 → Fin 256 → EReal
  g1 : Fin 3 → Fin 256 → Fin 256 → EReal
  c1 : Fin 3 → Fin 256 → EReal
  g2 : Fin 3 → Fin 256 → Fin 256 → EReal
  c2 : Fin 3 → Fin 256 → EReal
  dw : Fin 256 → EReal
  db : EReal

/-- The encoder: two rectified dense layers. -/
def enc (P : Params) (xr : Fin 16 → EReal) : Fin 256 → EReal := relu (dense P.w1 P.b1 (relu (dense P.w0 P.b0 xr)))

/-- The nodes before the first round: the encoding plus each node's initial vector. -/
def nodes0 (P : Params) (xr : Fin 16 → EReal) : Fin 3 → Fin 256 → EReal := fun j o => enc P xr o + P.init j o

/-- Round `l` with its own weights. -/
def roundAt (P : Params) (l : Fin 3) (n : Fin 3 → Fin 256 → EReal) : Fin 3 → Fin 256 → EReal :=
  round (P.g1 l) (P.c1 l) (P.g2 l) (P.c2 l) n

/-- The nodes after the three rounds. -/
def nodes3 (P : Params) (xr : Fin 16 → EReal) : Fin 3 → Fin 256 → EReal :=
  roundAt P 2 (roundAt P 1 (roundAt P 0 (nodes0 P xr)))

/-- The decoder: one number per node. -/
def decode (P : Params) (n : Fin 3 → Fin 256 → EReal) : Fin 3 → EReal := fun j => (∑ k, n j k * P.dw k) + P.db

/-- One output row from one input row. -/
def rowSpec (P : Params) (xr : Fin 16 → EReal) : Fin 3 → EReal := decode P (nodes3 P xr)

/-- The weights read off the argument arrays. -/
def paramsOf (a1 : (⟨2, ![256, 16]⟩ : Shape).Idx → EReal) (a2 : (⟨1, ![256]⟩ : Shape).Idx → EReal)
    (a3 : (⟨2, ![256, 256]⟩ : Shape).Idx → EReal) (a4 : (⟨1, ![256]⟩ : Shape).Idx → EReal)
    (a5 : (⟨2, ![3, 256]⟩ : Shape).Idx → EReal) (a6 : (⟨3, ![3, 256, 256]⟩ : Shape).Idx → EReal)
    (a7 : (⟨2, ![3, 256]⟩ : Shape).Idx → EReal) (a8 : (⟨3, ![3, 256, 256]⟩ : Shape).Idx → EReal)
    (a9 : (⟨2, ![3, 256]⟩ : Shape).Idx → EReal) (a10 : (⟨2, ![1, 256]⟩ : Shape).Idx → EReal)
    (a11 : (⟨1, ![1]⟩ : Shape).Idx → EReal) : Params where
  w0 := fun o k => a1 (ix2 o k)
  b0 := fun o => a2 (ix1 o)
  w1 := fun o k => a3 (ix2 o k)
  b1 := fun o => a4 (ix1 o)
  init := fun j o => a5 (ix2 j o)
  g1 := fun l o k => a6 (ix3 l o k)
  c1 := fun l o => a7 (ix2 l o)
  g2 := fun l o k => a8 (ix3 l o k)
  c2 := fun l o => a9 (ix2 l o)
  dw := fun k => a10 (ix2 (0 : Fin 1) k)
  db := a11 (ix1 (0 : Fin 1))

/-- The whole result array: row `i 0`, node `i 1`. -/
def G (P : Params) (x : (⟨2, ![32768, 16]⟩ : Shape).Idx → EReal) : (⟨2, ![32768, 3]⟩ : Shape).Idx → EReal :=
  fun i => rowSpec P (fun k => x (ix2 (i 0) k)) (i 1)

theorem G_ix2 (P : Params) (x : (⟨2, ![32768, 16]⟩ : Shape).Idx → EReal) (b : Fin 32768) (j : Fin 3) :
    G P x (ix2 b j) = rowSpec P (fun k => x (ix2 b k)) j := rfl

end Cert.Gnn

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.RowOps.lean ====
/-
  The body's array operations, read on one row.

  Every intermediate of the body is an array of 1024 rows, and each operation acts on the rows separately: a product
  with a transposed weight matrix plus a broadcast bias row is a dense layer applied to each row, a maximum with the
  zero splat is the rectifier applied to each row.  This module says so for the shapes of this kernel, in the
  vocabulary of the row function: `row a r` is row r of a, `wmat w` a weight matrix by coordinates (output-major),
  `wmatT w` the same for a matrix stored already transposed, `brow b` a one-row matrix as a vector, `slab l w` matrix
  l of a stack.  It also reads the loads of one row of a 3×256 block and of one matrix of a 3×256×256 block, and the
  concatenation of three columns.
-/
import proofs.«135949_j54657753809375_1_alg».proof.Proof.Spec
import proofs.«135949_j54657753809375_1_alg».proof.Proof.LibMatmul
import proofs.«135949_j54657753809375_1_alg».proof.Proof.Gen.KernelIdeal.Frame
import Idealize.ShloMosaic.Lib.ValueLayout
import Idealize.ShloMosaic.Lib.Pipeline.Value
import Idealize.ShloMosaic.PureOps.Ideal.Laws

noncomputable section

namespace Cert.Gnn

open Idealize.ShloMosaic Idealize.ShloMosaic.ValueIdx Cert.KernelIdeal Cert.KernelIdeal.Gen

/-! ## Rows, weight matrices and bias rows by coordinates -/

/-- Row `r` of an array of 1024 rows. -/
def row {N : ℕ} {φ : FTy} (a : FVec Ideal ⟨2, ![1024, N]⟩ φ) (r : Fin 1024) : Fin N → EReal := fun k => a (ix2 r k)

/-- A matrix by coordinates. -/
def wmat {N K : ℕ} {φ : FTy} (w : FVec Ideal ⟨2, ![N, K]⟩ φ) : Fin N → Fin K → EReal := fun o k => w (ix2 o k)

/-- A matrix stored transposed, by the coordinates of the matrix it stands for. -/
def wmatT {N K : ℕ} {φ : FTy} (w : FVec Ideal ⟨2, ![K, N]⟩ φ) : Fin N → Fin K → EReal := fun o k => w (ix2 k o)

/-- A one-row matrix as a vector. -/
def brow {N : ℕ} {φ : FTy} (b : FVec Ideal ⟨2, ![1, N]⟩ φ) : Fin N → EReal := fun o => b (ix2 (0 : Fin 1) o)

/-- Matrix `l` of a stack of matrices, by coordinates. -/
def slab {L N K : ℕ} {φ : FTy} (l : Fin L) (w : FVec Ideal ⟨3, ![L, N, K]⟩ φ) : Fin N → Fin K → EReal :=
  fun o k => w (ix3 l o k)

/-! ## The three products' dimension numbers are the plain ones -/

theorem dot16_eq : dot_S1024x16_S16x256_S1024x256_1_0_0_1_n_n = DotDims.plain 1024 16 256 := rfl
theorem dot256_eq : dot_S1024x256_S256x256_S1024x256_1_0_0_1_n_n = DotDims.plain 1024 256 256 := rfl
theorem dot1_eq : dot_S1024x256_S256x1_S1024x1_1_0_0_1_n_n = DotDims.plain 1024 256 1 := rfl

/-! ## Sums, differences and narrowings act on each row -/

theorem add_row {N : ℕ} {φ : FTy} (a b : FVec Ideal ⟨2, ![1024, N]⟩ φ) (r : Fin 1024) :
    row (addf a b) r = fun o => row a r o + row b r o := rfl

theorem sub_row {N : ℕ} {φ : FTy} (a b : FVec Ideal ⟨2, ![1024, N]⟩ φ) (r : Fin 1024) :
    row (subf a b) r = fun o => row a r o - row b r o := rfl

theorem trunc_row {N : ℕ} (a : FVec Ideal ⟨2, ![1024, N]⟩ .f32) (r : Fin 1024) :
    row (truncf .bf16 a Facts₀.bitsLt_bf16_f32) r = row a r := rfl

/-- A bias row broadcast over the 1024 rows: every row is the bias. -/
theorem bcast_row (b : FVec Ideal S1x256 .f32) (r : Fin 1024) :
    row (broadcastTo S1024x256 b Facts₀.broadcasts_S1x256_S1024x256) r = brow b :=
  funext fun o => broadcastTo_1b_ab_apply b _ r o

/-! ## A dense layer on every row -/

/-- 256 → 256: the product with the transposed weights, plus the bias row broadcast over the rows. -/
theorem dense256_row (a : FVec Ideal S1024x256 .f32) (w : FVec Ideal S256x256 .bf16) (b : FVec Ideal S1x256 .f32)
    (r : Fin 1024) :
    row (addf (matmul dot_S1024x256_S256x256_S1024x256_1_0_0_1_n_n none (truncf .bf16 a Facts₀.bitsLt_bf16_f32)
        (transpose S256x256 [1, 0] w Facts₀.transposes_S256x256_p1_0_S256x256) (constant S1024x256 .f32 0x00000000#32))
      (broadcastTo S1024x256 b Facts₀.broadcasts_S1x256_S1024x256)) r
      = dense (wmat w) (brow b) (row a r) := by
  funext o
  show addf _ _ (ix2 r o) = _
  rw [addf_apply, dot256_eq]
  simp only [matmul]
  rw [Cert.Matmul.matmul_plain_apply, broadcastTo_1b_ab_apply]
  refine congrArg (· + b (ix2 (0 : Fin 1) o)) (Finset.sum_congr rfl fun k _ => ?_)
  rw [transpose_ix2_apply]
  rfl

/-- The same with the weights already transposed and the left operand already narrowed. -/
theorem dense256T_row (a : FVec Ideal S1024x256 .bf16) (w : FVec Ideal S256x256 .bf16) (b : FVec Ideal S1x256 .f32)
    (r : Fin 1024) :
    row (addf (matmul dot_S1024x256_S256x256_S1024x256_1_0_0_1_n_n none a w (constant S1024x256 .f32 0x00000000#32))
      (broadcastTo S1024x256 b Facts₀.broadcasts_S1x256_S1024x256)) r
      = dense (wmatT w) (brow b) (row a r) := by
  funext o
  show addf _ _ (ix2 r o) = _
  rw [addf_apply, dot256_eq]
  simp only [matmul]
  rw [Cert.Matmul.matmul_plain_apply, broadcastTo_1b_ab_apply]
  rfl

/-- 16 → 256: the encoder's first layer. -/
theorem dense16_row (a : FVec Ideal S1024x16 .f32) (w : FVec Ideal S256x16 .bf16) (b : FVec Ideal S1x256 .f32)
    (r : Fin 1024) :
    row (addf (matmul dot_S1024x16_S16x256_S1024x256_1_0_0_1_n_n none (truncf .bf16 a Facts₀.bitsLt_bf16_f32)
        (transpose S16x256 [1, 0] w Facts₀.transposes_S256x16_p1_0_S16x256) (constant S1024x256 .f32 0x00000000#32))
      (broadcastTo S1024x256 b Facts₀.broadcasts_S1x256_S1024x256)) r
      = dense (wmat w) (brow b) (row a r) := by
  funext o
  show addf _ _ (ix2 r o) = _
  rw [addf_apply, dot16_eq]
  simp only [matmul]
  rw [Cert.Matmul.matmul_plain_apply, broadcastTo_1b_ab_apply]
  refine congrArg (· + b (ix2 (0 : Fin 1) o)) (Finset.sum_congr rfl fun k _ => ?_)
  rw [transpose_ix2_apply]
  rfl

/-- 256 → 1: the decoder's column, the 1×1 bias broadcast down it. -/
theorem decode_apply (a : FVec Ideal S1024x256 .f32) (w : FVec Ideal S1x256 .bf16) (b : FVec Ideal S1x1 .f32)
    (r : Fin 1024) (u : Fin 1) :
    addf (matmul dot_S1024x256_S256x1_S1024x1_1_0_0_1_n_n none (truncf .bf16 a Facts₀.bitsLt_bf16_f32)
        (transpose S256x1 [1, 0] w Facts₀.transposes_S1x256_p1_0_S256x1) (constant S1024x1 .f32 0x00000000#32))
      (broadcastTo S1024x1 b Facts₀.broadcasts_S1x1_S1024x1) (ix2 r u)
      = (∑ k, row a r k * brow w k) + b (ix2 (0 : Fin 1) (0 : Fin 1)) := by
  obtain rfl : u = 0 := Subsingleton.elim _ _
  rw [addf_apply, dot1_eq]
  simp only [matmul]
  rw [Cert.Matmul.matmul_plain_apply, broadcastTo_1b_ab_apply]
  refine congrArg (· + b (ix2 (0 : Fin 1) (0 : Fin 1))) (Finset.sum_congr rfl fun k _ => ?_)
  rw [transpose_ix2_apply]
  rfl

/-! ## The rectifier on every row -/

/-- The maximum with the zero splat. -/
theorem relu_row {N : ℕ} (a : FVec Ideal ⟨2, ![1024, N]⟩ .f32) (r : Fin 1024) :
    row (maximumf a (broadcast ⟨2, ![1024, N]⟩ (Scalar.ofBits (F := Ideal) .f32 0x00000000#32))) r = relu (row a r) := by
  funext o
  show max (a (ix2 r o)) (Ideal.ofBits .f32 0x00000000#32) = max (a (ix2 r o)) 0
  rw [Ideal.ofBits_zero_f32]

/-! ## Loads of whole blocks, of one row of a 3×256 block and of one matrix of a 3×256×256 block -/

/-- The zero offsets of a rank-2 load, as the constant function. -/
theorem hz2 : (![0, 0] : Fin 2 → Nat) = fun _ => 0 := by
  funext a; match a with | ⟨0, _⟩ => rfl | ⟨1, _⟩ => rfl

/-- Row 0 of a 3×256 block, loaded as a 1×256 block. -/
theorem ld_row0 (x : Vec Ideal S3x256 .f32) :
    brow (φ := .f32) (View.ld x r0_4) = fun o => x (ix2 (0 : Fin 3) o) :=
  funext fun o => congrArg x (funext fun a => Fin.ext (by
    match a with
    | ⟨0, _⟩ => rfl
    | ⟨1, _⟩ => show 0 + 1 * o.val = o.val; omega))

/-- Row 1. -/
theorem ld_row1 (x : Vec Ideal S3x256 .f32) :
    brow (φ := .f32) (View.ld x r0_5) = fun o => x (ix2 (1 : Fin 3) o) :=
  funext fun o => congrArg x (funext fun a => Fin.ext (by
    match a with
    | ⟨0, _⟩ => rfl
    | ⟨1, _⟩ => show 0 + 1 * o.val = o.val; omega))

/-- Row 2. -/
theorem ld_row2 (x : Vec Ideal S3x256 .f32) :
    brow (φ := .f32) (View.ld x r0_6) = fun o => x (ix2 (2 : Fin 3) o) :=
  funext fun o => congrArg x (funext fun a => Fin.ext (by
    match a with
    | ⟨0, _⟩ => rfl
    | ⟨1, _⟩ => show 0 + 1 * o.val = o.val; omega))

/-- Matrix 0 of a 3×256×256 block, loaded as a 1×256×256 block. -/
theorem ld_slab0 (x : Vec Ideal S3x256x256 .f32) :
    slab (φ := .f32) (0 : Fin 1) (View.ld x r0_7) = slab (φ := .f32) (0 : Fin 3) x :=
  funext fun o => funext fun k => congrArg x (funext fun a => Fin.ext (by
    match a with
    | ⟨0, _⟩ => rfl
    | ⟨1, _⟩ => show 0 + 1 * o.val = o.val; omega
    | ⟨2, _⟩ => show 0 + 1 * k.val = k.val; omega))

/-- Matrix 1. -/
theorem ld_slab1 (x : Vec Ideal S3x256x256 .f32) :
    slab (φ := .f32) (0 : Fin 1) (View.ld x r0_8) = slab (φ := .f32) (1 : Fin 3) x :=
  funext fun o => funext fun k => congrArg x (funext fun a => Fin.ext (by
    match a with
    | ⟨0, _⟩ => rfl
    | ⟨1, _⟩ => show 0 + 1 * o.val = o.val; omega
    | ⟨2, _⟩ => show 0 + 1 * k.val = k.val; omega))

/-- Matrix 2. -/
theorem ld_slab2 (x : Vec Ideal S3x256x256 .f32) :
    slab (φ := .f32) (0 : Fin 1) (View.ld x r0_9) = slab (φ := .f32) (2 : Fin 3) x :=
  funext fun o => funext fun k => congrArg x (funext fun a => Fin.ext (by
    match a with
    | ⟨0, _⟩ => rfl
    | ⟨1, _⟩ => show 0 + 1 * o.val = o.val; omega
    | ⟨2, _⟩ => show 0 + 1 * k.val = k.val; omega))

/-! ## The weights and biases as the body prepares them -/

/-- A loaded 1×256×256 block viewed as a 256×256 matrix and narrowed: the block's one matrix. -/
theorem wmat_cast (v : FVec Ideal S1x256x256 .f32) :
    wmat (truncf .bf16 (shapeCast S256x256 v Facts₀.shapeCasts_S1x256x256_S256x256 : FVec Ideal S256x256 .f32)
      Facts₀.bitsLt_bf16_f32) = slab (0 : Fin 1) v :=
  funext fun o => funext fun k => shapeCast_1ab_ab_apply v _ o k

/-- A loaded 1×256 row flattened and unflattened again is itself. -/
theorem bias_cast (v : FVec Ideal S1x256 .f32) :
    shapeCast S1x256 (shapeCast S256 v Facts₀.shapeCasts_S1x256_S256) Facts₀.shapeCasts_S256_S1x256 = v :=
  shapeCast_shapeCast v _ _

/-- A matrix transposed, read as a matrix stored transposed, is the matrix. -/
theorem wmatT_transpose (w : FVec Ideal S256x256 .bf16) :
    wmatT (transpose S256x256 [1, 0] w Facts₀.transposes_S256x256_p1_0_S256x256) = wmat w :=
  funext fun o => funext fun k => transpose_ix2_apply w _ k o

/-! ## The three decoder columns side by side -/

theorem concat3_0 (c0 c1 c2 : FVec Ideal S1024x1 .f32) (r : Fin 1024) :
    concatenate S1024x3 1 [⟨S1024x1, c0⟩, ⟨S1024x1, c1⟩, ⟨S1024x1, c2⟩]
      Facts₀.concatenates_S1024x1_S1024x1_S1024x1_S1024x3_d1 (ix2 r (0 : Fin 3)) = c0 (ix2 r (0 : Fin 1)) :=
  concatenate_apply_piece (t := S1024x3) 1 [⟨S1024x1, c0⟩, ⟨S1024x1, c1⟩, ⟨S1024x1, c2⟩]
    Facts₀.concatenates_S1024x1_S1024x1_S1024x1_S1024x3_d1 (ix2 r (0 : Fin 3)) 0 (by simp) S1024x1 c0 rfl
    (rfl : S1024x1.rank = S1024x3.rank) 0 rfl (ix2 r (0 : Fin 1))
    (fun b hb => by match b with | ⟨0, _⟩ => rfl | ⟨1, _⟩ => exact absurd rfl hb) rfl

theorem concat3_1 (c0 c1 c2 : FVec Ideal S1024x1 .f32) (r : Fin 1024) :
    concatenate S1024x3 1 [⟨S1024x1, c0⟩, ⟨S1024x1, c1⟩, ⟨S1024x1, c2⟩]
      Facts₀.concatenates_S1024x1_S1024x1_S1024x1_S1024x3_d1 (ix2 r (1 : Fin 3)) = c1 (ix2 r (0 : Fin 1)) :=
  concatenate_apply_piece (t := S1024x3) 1 [⟨S1024x1, c0⟩, ⟨S1024x1, c1⟩, ⟨S1024x1, c2⟩]
    Facts₀.concatenates_S1024x1_S1024x1_S1024x1_S1024x3_d1 (ix2 r (1 : Fin 3)) 1 (by simp) S1024x1 c1 rfl
    (rfl : S1024x1.rank = S1024x3.rank) 1 rfl (ix2 r (0 : Fin 1))
    (fun b hb => by match b with | ⟨0, _⟩ => rfl | ⟨1, _⟩ => exact absurd rfl hb) rfl

theorem concat3_2 (c0 c1 c2 : FVec Ideal S1024x1 .f32) (r : Fin 1024) :
    concatenate S1024x3 1 [⟨S1024x1, c0⟩, ⟨S1024x1, c1⟩, ⟨S1024x1, c2⟩]
      Facts₀.concatenates_S1024x1_S1024x1_S1024x1_S1024x3_d1 (ix2 r (2 : Fin 3)) = c2 (ix2 r (0 : Fin 1)) :=
  concatenate_apply_piece (t := S1024x3) 1 [⟨S1024x1, c0⟩, ⟨S1024x1, c1⟩, ⟨S1024x1, c2⟩]
    Facts₀.concatenates_S1024x1_S1024x1_S1024x1_S1024x3_d1 (ix2 r (2 : Fin 3)) 2 (by simp) S1024x1 c2 rfl
    (rfl : S1024x1.rank = S1024x3.rank) 2 rfl (ix2 r (0 : Fin 1))
    (fun b hb => by match b with | ⟨0, _⟩ => rfl | ⟨1, _⟩ => exact absurd rfl hb) rfl

end Cert.Gnn

end
-- ==== Proof.Payloads.lean ====
/-
  The body's values, each read on one row.

  The body's arithmetic is cut into named values, each a function of earlier values and of loaded blocks.  Here every
  one of them is read on row r, as a function of row r of its arguments: the encoder (two rectified dense layers), the
  three start nodes (the encoding plus an initial row), a total of three nodes grouped from the left, the two-layer
  perceptron of a node plus (total minus node), and the decoder's three columns side by side.  The weights reach these
  values as loaded 1×256×256 blocks viewed as matrices and as loaded 1×256 rows.
-/
import proofs.«135949_j54657753809375_1_alg».proof.Proof.RowOps

noncomputable section

namespace Cert.Gnn

open Idealize.ShloMosaic Idealize.ShloMosaic.ValueIdx Cert.KernelIdeal Cert.KernelIdeal.Gen

variable (r : Fin 1024)

/-! ## The encoder and the start nodes -/

/-- The encoding: 16 → 256 → 256, a rectifier after each layer. -/
theorem pay2_row (v0 : FVec Ideal S1024x16 .f32) (v2 : FVec Ideal S256x16 .f32) (v6 : FVec Ideal S1x256 .f32) (v12 : FVec Ideal S256x256 .f32) (v17 : FVec Ideal S1x256 .f32) :
    row (k0_pay2 v0 v2 v6 v12 v17) r
      = relu (dense (wmat v12) (brow v17) (relu (dense (wmat v2) (brow v6) (row v0 r)))) := by
  unfold k0_pay2
  dsimp only
  rw [relu_row, dense256_row, relu_row, shapeCast_self, shapeCast_self, dense16_row]
  rfl

/-- Start node 0: the encoding plus the first initial row. -/
theorem pay3_row (v0 : FVec Ideal S1024x16 .f32) (v2 : FVec Ideal S256x16 .f32) (v6 : FVec Ideal S1x256 .f32) (v12 : FVec Ideal S256x256 .f32) (v17 : FVec Ideal S1x256 .f32) (v23 : FVec Ideal S1x256 .f32) :
    row (k0_pay3 v0 v2 v6 v12 v17 v23) r = fun o => row (k0_pay2 v0 v2 v6 v12 v17) r o + brow v23 o := by
  unfold k0_pay3
  dsimp only
  rw [add_row, bias_cast, bcast_row]

/-- Start node 1: the same encoding plus the second initial row. -/
theorem pay4_row (v0 : FVec Ideal S1024x16 .f32) (v2 : FVec Ideal S256x16 .f32) (v6 : FVec Ideal S1x256 .f32) (v12 : FVec Ideal S256x256 .f32) (v17 : FVec Ideal S1x256 .f32) (v28 : FVec Ideal S1x256 .f32) :
    row (k0_pay4 v0 v2 v6 v12 v17 v28) r = fun o => row (k0_pay2 v0 v2 v6 v12 v17) r o + brow v28 o := by
  unfold k0_pay4
  dsimp only
  rw [add_row, bias_cast, bcast_row]

/-- Start node 2: the same encoding plus the third initial row. -/
theorem pay5_row (v0 : FVec Ideal S1024x16 .f32) (v2 : FVec Ideal S256x16 .f32) (v6 : FVec Ideal S1x256 .f32) (v12 : FVec Ideal S256x256 .f32) (v17 : FVec Ideal S1x256 .f32) (v33 : FVec Ideal S1x256 .f32) :
    row (k0_pay5 v0 v2 v6 v12 v17 v33) r = fun o => row (k0_pay2 v0 v2 v6 v12 v17) r o + brow v33 o := by
  unfold k0_pay5
  dsimp only
  rw [add_row, bias_cast, bcast_row]

/-- The first two start nodes added. -/
theorem pay6_row (v0 : FVec Ideal S1024x16 .f32) (v2 : FVec Ideal S256x16 .f32) (v6 : FVec Ideal S1x256 .f32) (v12 : FVec Ideal S256x256 .f32) (v17 : FVec Ideal S1x256 .f32) (v23 : FVec Ideal S1x256 .f32) (v28 : FVec Ideal S1x256 .f32) :
    row (k0_pay6 v0 v2 v6 v12 v17 v23 v28) r
      = fun o => row (k0_pay3 v0 v2 v6 v12 v17 v23) r o + row (k0_pay4 v0 v2 v6 v12 v17 v28) r o := rfl

/-- The third added to the sum of the first two. -/
theorem pay7_row (v37 : FVec Ideal S1024x256 .f32) (v38 : FVec Ideal S1024x256 .f32) :
    row (k0_pay7 v37 v38) r = fun o => row v38 r o + row v37 r o := rfl

/-! ## The weights and biases of a round, as the body prepares them -/

/-- Round 0, first layer: the loaded block's one matrix. -/
theorem pay8_wmat (v40 : FVec Ideal S1x256x256 .f32) : wmat (k0_pay8 v40) = slab (0 : Fin 1) v40 := wmat_cast v40

/-- Round 0, second layer. -/
theorem pay10_wmat (v46 : FVec Ideal S1x256x256 .f32) : wmat (k0_pay10 v46) = slab (0 : Fin 1) v46 := wmat_cast v46

/-- Round 1, first layer. -/
theorem pay17_wmat (v102 : FVec Ideal S1x256x256 .f32) : wmat (k0_pay17 v102) = slab (0 : Fin 1) v102 := wmat_cast v102

/-- Round 1, second layer. -/
theorem pay19_wmat (v108 : FVec Ideal S1x256x256 .f32) : wmat (k0_pay19 v108) = slab (0 : Fin 1) v108 := wmat_cast v108

/-- Round 2, first layer. -/
theorem pay27_wmat (v164 : FVec Ideal S1x256x256 .f32) : wmat (k0_pay27 v164) = slab (0 : Fin 1) v164 := wmat_cast v164

/-- Round 2, second layer. -/
theorem pay29_wmat (v170 : FVec Ideal S1x256x256 .f32) : wmat (k0_pay29 v170) = slab (0 : Fin 1) v170 := wmat_cast v170

/-- Round 0, first bias: the loaded row itself (flattened, then given its unit axis back). -/
theorem pay9_eq (v43 : FVec Ideal S1x256 .f32) : k0_pay9 v43 = v43 := bias_cast v43

/-- Round 0, second bias. -/
theorem pay11_eq (v49 : FVec Ideal S1x256 .f32) : k0_pay11 v49 = v49 := bias_cast v49

/-- Round 1, first bias. -/
theorem pay18_eq (v105 : FVec Ideal S1x256 .f32) : k0_pay18 v105 = v105 := bias_cast v105

/-- Round 1, second bias. -/
theorem pay20_eq (v111 : FVec Ideal S1x256 .f32) : k0_pay20 v111 = v111 := bias_cast v111

/-- Round 2, first bias. -/
theorem pay28_eq (v167 : FVec Ideal S1x256 .f32) : k0_pay28 v167 = v167 := bias_cast v167

/-- Round 2, second bias. -/
theorem pay30_eq (v173 : FVec Ideal S1x256 .f32) : k0_pay30 v173 = v173 := bias_cast v173

/-- The second layer's weights of round 1, transposed once for all three nodes. -/
theorem pay22_wmatT (v108 : FVec Ideal S1x256x256 .f32) : wmatT (k0_pay22 v108) = slab (0 : Fin 1) v108 := by
  unfold k0_pay22
  dsimp only
  rw [wmatT_transpose, pay19_wmat]

/-! ## Round 0: nodes 0 and 1 straight from the loaded blocks, node 2 from the prepared weights -/

/-- Node 0 after round 0. -/
theorem pay12_row (v27 : FVec Ideal S1024x256 .f32) (v37 : FVec Ideal S1024x256 .f32) (v38 : FVec Ideal S1024x256 .f32) (v40 : FVec Ideal S1x256x256 .f32) (v43 : FVec Ideal S1x256 .f32) (v46 : FVec Ideal S1x256x256 .f32) (v49 : FVec Ideal S1x256 .f32) :
    row (k0_pay12 v27 v37 v38 v40 v43 v46 v49) r
      = relu (dense (slab (0 : Fin 1) v46) (brow v49) (relu (dense (slab (0 : Fin 1) v40) (brow v43)
          (fun k => row v27 r k + ((row v38 r k + row v37 r k) - row v27 r k))))) := by
  unfold k0_pay12
  dsimp only
  rw [relu_row, dense256_row, relu_row, dense256_row, pay8_wmat, pay9_eq, pay10_wmat, pay11_eq]
  rfl

/-- Node 1 after round 0, before its last rectifier. -/
theorem pay13_row (v32 : FVec Ideal S1024x256 .f32) (v37 : FVec Ideal S1024x256 .f32) (v38 : FVec Ideal S1024x256 .f32) (v40 : FVec Ideal S1x256x256 .f32) (v43 : FVec Ideal S1x256 .f32) (v46 : FVec Ideal S1x256x256 .f32) (v49 : FVec Ideal S1x256 .f32) :
    row (k0_pay13 v32 v37 v38 v40 v43 v46 v49) r
      = dense (slab (0 : Fin 1) v46) (brow v49) (relu (dense (slab (0 : Fin 1) v40) (brow v43)
          (fun k => row v32 r k + ((row v38 r k + row v37 r k) - row v32 r k)))) := by
  unfold k0_pay13
  dsimp only
  rw [dense256_row, relu_row, dense256_row, pay8_wmat, pay9_eq, pay10_wmat, pay11_eq]
  rfl

/-- Its last rectifier. -/
theorem pay14_row (v81 : FVec Ideal S1024x256 .f32) : row (k0_pay14 v81) r = relu (row v81 r) := by
  unfold k0_pay14
  dsimp only
  rw [relu_row]

/-- Node 2 after round 0. -/
theorem pay15_row (v37 : FVec Ideal S1024x256 .f32) (v39 : FVec Ideal S1024x256 .f32) (v42 : FVec Ideal S256x256 .bf16) (v45 : FVec Ideal S1x256 .f32) (v48 : FVec Ideal S256x256 .bf16) (v51 : FVec Ideal S1x256 .f32) :
    row (k0_pay15 v37 v39 v42 v45 v48 v51) r
      = relu (dense (wmat v48) (brow v51) (relu (dense (wmat v42) (brow v45)
          (fun k => row v37 r k + (row v39 r k - row v37 r k))))) := by
  unfold k0_pay15
  dsimp only
  rw [relu_row, dense256_row, relu_row, dense256_row]
  rfl

/-- The total of the three nodes after round 0. -/
theorem pay16_row (v37 : FVec Ideal S1024x256 .f32) (v39 : FVec Ideal S1024x256 .f32) (v42 : FVec Ideal S256x256 .bf16) (v45 : FVec Ideal S1x256 .f32) (v48 : FVec Ideal S256x256 .bf16) (v51 : FVec Ideal S1x256 .f32) (v67 : FVec Ideal S1024x256 .f32) (v81 : FVec Ideal S1024x256 .f32) :
    row (k0_pay16 v37 v39 v42 v45 v48 v51 v67 v81) r
      = fun o => (row v67 r o + row (k0_pay14 v81) r o) + row (k0_pay15 v37 v39 v42 v45 v48 v51) r o := rfl

/-! ## Round 1 -/

/-- Node 0's first layer in round 1, rectified and narrowed. -/
theorem pay21_row (v37 : FVec Ideal S1024x256 .f32) (v39 : FVec Ideal S1024x256 .f32) (v42 : FVec Ideal S256x256 .bf16) (v45 : FVec Ideal S1x256 .f32) (v48 : FVec Ideal S256x256 .bf16) (v51 : FVec Ideal S1x256 .f32) (v67 : FVec Ideal S1024x256 .f32) (v81 : FVec Ideal S1024x256 .f32) (v102 : FVec Ideal S1x256x256 .f32) (v105 : FVec Ideal S1x256 .f32) :
    row (k0_pay21 v37 v39 v42 v45 v48 v51 v67 v81 v102 v105) r
      = relu (dense (slab (0 : Fin 1) v102) (brow v105)
          (fun k => row v67 r k + (row (k0_pay16 v37 v39 v42 v45 v48 v51 v67 v81) r k - row v67 r k))) := by
  unfold k0_pay21
  dsimp only
  rw [trunc_row, relu_row, dense256_row, pay17_wmat, pay18_eq]
  rfl

/-- Node 0 after round 1: the second layer on the narrowed first. -/
theorem pay23_row (v113 : FVec Ideal S1x256 .f32) (v123 : FVec Ideal S1024x256 .bf16) (v124 : FVec Ideal S256x256 .bf16) :
    row (k0_pay23 v113 v123 v124) r = relu (dense (wmatT v124) (brow v113) (row v123 r)) := by
  unfold k0_pay23
  dsimp only
  rw [relu_row, dense256T_row]

/-- Node 1 after round 1. -/
theorem pay24_row (v83 : FVec Ideal S1024x256 .f32) (v101 : FVec Ideal S1024x256 .f32) (v104 : FVec Ideal S256x256 .bf16) (v107 : FVec Ideal S1x256 .f32) (v110 : FVec Ideal S256x256 .bf16) (v113 : FVec Ideal S1x256 .f32) :
    row (k0_pay24 v83 v101 v104 v107 v110 v113) r
      = relu (dense (wmat v110) (brow v113) (relu (dense (wmat v104) (brow v107)
          (fun k => row v83 r k + (row v101 r k - row v83 r k))))) := by
  unfold k0_pay24
  dsimp only
  rw [relu_row, dense256_row, relu_row, dense256_row]
  rfl

/-- Node 2 after round 1. -/
theorem pay25_row (v99 : FVec Ideal S1024x256 .f32) (v101 : FVec Ideal S1024x256 .f32) (v104 : FVec Ideal S256x256 .bf16) (v107 : FVec Ideal S1x256 .f32) (v110 : FVec Ideal S256x256 .bf16) (v113 : FVec Ideal S1x256 .f32) :
    row (k0_pay25 v99 v101 v104 v107 v110 v113) r
      = relu (dense (wmat v110) (brow v113) (relu (dense (wmat v104) (brow v107)
          (fun k => row v99 r k + (row v101 r k - row v99 r k))))) := by
  unfold k0_pay25
  dsimp only
  rw [relu_row, dense256_row, relu_row, dense256_row]
  rfl

/-- The total of the three nodes after round 1. -/
theorem pay26_row (v83 : FVec Ideal S1024x256 .f32) (v99 : FVec Ideal S1024x256 .f32) (v101 : FVec Ideal S1024x256 .f32) (v104 : FVec Ideal S256x256 .bf16) (v107 : FVec Ideal S1x256 .f32) (v110 : FVec Ideal S256x256 .bf16) (v113 : FVec Ideal S1x256 .f32) (v123 : FVec Ideal S1024x256 .bf16) (v124 : FVec Ideal S256x256 .bf16) :
    row (k0_pay26 v83 v99 v101 v104 v107 v110 v113 v123 v124) r
      = fun o => (row (k0_pay23 v113 v123 v124) r o + row (k0_pay24 v83 v101 v104 v107 v110 v113) r o)
          + row (k0_pay25 v99 v101 v104 v107 v110 v113) r o := rfl

/-! ## Round 2 -/

/-- Node 0 after round 2. -/
theorem pay31_row (v129 : FVec Ideal S1024x256 .f32) (v163 : FVec Ideal S1024x256 .f32) (v166 : FVec Ideal S256x256 .bf16) (v169 : FVec Ideal S1x256 .f32) (v170 : FVec Ideal S1x256x256 .f32) (v173 : FVec Ideal S1x256 .f32) :
    row (k0_pay31 v129 v163 v166 v169 v170 v173) r
      = relu (dense (slab (0 : Fin 1) v170) (brow v173) (relu (dense (wmat v166) (brow v169)
          (fun k => row v129 r k + (row v163 r k - row v129 r k))))) := by
  unfold k0_pay31
  dsimp only
  rw [relu_row, dense256_row, relu_row, dense256_row, pay29_wmat, pay30_eq]
  rfl

/-- Node 1 after round 2. -/
theorem pay32_row (v145 : FVec Ideal S1024x256 .f32) (v163 : FVec Ideal S1024x256 .f32) (v166 : FVec Ideal S256x256 .bf16) (v169 : FVec Ideal S1x256 .f32) (v170 : FVec Ideal S1x256x256 .f32) (v173 : FVec Ideal S1x256 .f32) :
    row (k0_pay32 v145 v163 v166 v169 v170 v173) r
      = relu (dense (slab (0 : Fin 1) v170) (brow v173) (relu (dense (wmat v166) (brow v169)
          (fun k => row v145 r k + (row v163 r k - row v145 r k))))) := by
  unfold k0_pay32
  dsimp only
  rw [relu_row, dense256_row, relu_row, dense256_row, pay29_wmat, pay30_eq]
  rfl

/-- Node 2's first layer in round 2, before its rectifier. -/
theorem pay33_row (v161 : FVec Ideal S1024x256 .f32) (v163 : FVec Ideal S1024x256 .f32) (v166 : FVec Ideal S256x256 .bf16) (v169 : FVec Ideal S1x256 .f32) :
    row (k0_pay33 v161 v163 v166 v169) r
      = dense (wmat v166) (brow v169) (fun k => row v161 r k + (row v163 r k - row v161 r k)) := by
  unfold k0_pay33
  dsimp only
  rw [dense256_row]
  rfl

/-! ## The decoder: node 2's second layer, then one column per node -/

/-- Column 0 of the stored value: node 0's inner product with the decoder row, plus the decoder bias. -/
theorem pay1_col0 (v172 : FVec Ideal S256x256 .bf16) (v175 : FVec Ideal S1x256 .f32) (v191 : FVec Ideal S1024x256 .f32) (v207 : FVec Ideal S1024x256 .f32) (v214 : FVec Ideal S1024x256 .f32) (v224 : FVec Ideal S1x256 .f32) (v226 : FVec Ideal S1x1 .f32) :
    k0_pay1 v172 v175 v191 v207 v214 (Scalar.ofBits (F := Ideal) .f32 0x00000000#32) v224 v226 (ix2 r (0 : Fin 3))
      = (∑ k, row v191 r k * brow v224 k) + v226 (ix2 (0 : Fin 1) (0 : Fin 1)) := by
  unfold k0_pay1
  dsimp only
  rw [concat3_0, shapeCast_self, decode_apply]
  rfl

/-- Column 1: node 1's. -/
theorem pay1_col1 (v172 : FVec Ideal S256x256 .bf16) (v175 : FVec Ideal S1x256 .f32) (v191 : FVec Ideal S1024x256 .f32) (v207 : FVec Ideal S1024x256 .f32) (v214 : FVec Ideal S1024x256 .f32) (v224 : FVec Ideal S1x256 .f32) (v226 : FVec Ideal S1x1 .f32) :
    k0_pay1 v172 v175 v191 v207 v214 (Scalar.ofBits (F := Ideal) .f32 0x00000000#32) v224 v226 (ix2 r (1 : Fin 3))
      = (∑ k, row v207 r k * brow v224 k) + v226 (ix2 (0 : Fin 1) (0 : Fin 1)) := by
  unfold k0_pay1
  dsimp only
  rw [concat3_1, shapeCast_self, decode_apply]
  rfl

/-- Column 2: node 2's, whose rectifier and second layer of round 2 are applied here first. -/
theorem pay1_col2 (v172 : FVec Ideal S256x256 .bf16) (v175 : FVec Ideal S1x256 .f32) (v191 : FVec Ideal S1024x256 .f32) (v207 : FVec Ideal S1024x256 .f32) (v214 : FVec Ideal S1024x256 .f32) (v224 : FVec Ideal S1x256 .f32) (v226 : FVec Ideal S1x1 .f32) :
    k0_pay1 v172 v175 v191 v207 v214 (Scalar.ofBits (F := Ideal) .f32 0x00000000#32) v224 v226 (ix2 r (2 : Fin 3))
      = (∑ k, relu (dense (wmat v172) (brow v175) (relu (row v214 r))) k * brow v224 k)
          + v226 (ix2 (0 : Fin 1) (0 : Fin 1)) := by
  unfold k0_pay1
  dsimp only
  rw [concat3_2, shapeCast_self, decode_apply, relu_row, dense256_row, relu_row]
  rfl

end Cert.Gnn

end
-- ==== Proof.KernelRow.lean ====
/-
  The kernel's block, read at (r, j): the row function of the block's row r.

  The body stores one value, the concatenation of the three decoder columns; every intermediate of the body is a
  1024-row array whose row r depends on row r of the input block only, so the stored value at (r, j) is
  `rowSpec` of that row at node j, with the weights read off the weight blocks.

  The proof follows the body in program order.  The stored value is a tree in which shared values are written out at
  every use; each shared value is given a name once, and of each named array one fact is proved: its row r is the
  row function's term for it — the encoding plus an initial row for a start node, `total` of the nodes for a sum of
  three, `roundAt P l n j` for node j after round l — by the value's own row equation and the facts of the values it
  is made of.  The kernel groups its sums as the row function does ((n 0 + n 1) + n 2, and n j + (total − n j)), so
  every step closes by unfolding; no law of addition is used.
-/
import proofs.«135949_j54657753809375_1_alg».proof.Proof.Payloads

noncomputable section

namespace Cert.Gnn

open Idealize.ShloMosaic Idealize.ShloMosaic.ValueIdx Cert.KernelIdeal Cert.KernelIdeal.Gen

/-- The weights as the kernel's blocks hold them (the two encoder biases as one-row matrices, the decoder bias as a 1×1 matrix). -/
def kparams (x1 : Vec Ideal S256x16 .f32) (x2 : Vec Ideal S1x256 .f32) (x3 : Vec Ideal S256x256 .f32) (x4 : Vec Ideal S1x256 .f32)
    (x5 : Vec Ideal S3x256 .f32) (x6 : Vec Ideal S3x256x256 .f32) (x7 : Vec Ideal S3x256 .f32) (x8 : Vec Ideal S3x256x256 .f32)
    (x9 : Vec Ideal S3x256 .f32) (x10 : Vec Ideal S1x256 .f32) (x11 : Vec Ideal S1x1 .f32) : Params where
  w0 := fun o k => x1 (ix2 o k)
  b0 := fun o => x2 (ix2 (0 : Fin 1) o)
  w1 := fun o k => x3 (ix2 o k)
  b1 := fun o => x4 (ix2 (0 : Fin 1) o)
  init := fun j o => x5 (ix2 j o)
  g1 := fun l o k => x6 (ix3 l o k)
  c1 := fun l o => x7 (ix2 l o)
  g2 := fun l o k => x8 (ix3 l o k)
  c2 := fun l o => x9 (ix2 l o)
  dw := fun k => x10 (ix2 (0 : Fin 1) k)
  db := x11 (ix2 (0 : Fin 1) (0 : Fin 1))

/-- What the body leaves in the output block, at row r and node j. -/
theorem out_row (x0 : Vec Ideal S1024x16 .f32) (x1 : Vec Ideal S256x16 .f32) (x2 : Vec Ideal S1x256 .f32) (x3 : Vec Ideal S256x256 .f32)
    (x4 : Vec Ideal S1x256 .f32) (x5 : Vec Ideal S3x256 .f32) (x6 : Vec Ideal S3x256x256 .f32) (x7 : Vec Ideal S3x256 .f32)
    (x8 : Vec Ideal S3x256x256 .f32) (x9 : Vec Ideal S3x256 .f32) (x10 : Vec Ideal S1x256 .f32) (x11 : Vec Ideal S1x1 .f32)
    (r : Fin 1024) (j : Fin 3) :
    Cert.KernelIdeal.Gen.out0_12 (F := Ideal) x0 x1 x2 x3 x4 x5 x6 x7 x8 x9 x10 x11 (ix2 r j)
      = rowSpec (kparams x1 x2 x3 x4 x5 x6 x7 x8 x9 x10 x11) (fun k => x0 (ix2 r k)) j := by
  set P : Params := kparams x1 x2 x3 x4 x5 x6 x7 x8 x9 x10 x11 with hP
  set xr : Fin 16 → EReal := fun k => x0 (ix2 r k) with hxr
  -- the stored value is the body's one payload; the whole-block loads read the blocks themselves
  unfold Gen.out0_12
  rw [View.canon_unit_zero hz2]
  simp only [View.ld_unit_zero (S := S1024x16) hz2, View.ld_unit_zero (S := S256x16) hz2,
    View.ld_unit_zero (S := S1x256) hz2, View.ld_unit_zero (S := S256x256) hz2, View.ld_unit_zero (S := S1x1) hz2]
  -- name the body's values in program order: the start nodes A, the totals S, the weights W B V C of each round,
  -- the nodes N after round 0, Q after round 1, R after round 2 (M: a value before its last rectifier; H0: node 0's
  -- rectified first layer in round 1; V1T: round 1's second-layer weights, transposed)
  generalize hA0 : k0_pay3 x0 x1 x2 x3 x4 (View.ld x5 r0_4) = A0
  generalize hA1 : k0_pay4 x0 x1 x2 x3 x4 (View.ld x5 r0_5) = A1
  generalize hA2 : k0_pay5 x0 x1 x2 x3 x4 (View.ld x5 r0_6) = A2
  generalize hA01 : k0_pay6 x0 x1 x2 x3 x4 (View.ld x5 r0_4) (View.ld x5 r0_5) = A01
  generalize hS0 : k0_pay7 A2 A01 = S0
  generalize hW0 : k0_pay8 (View.ld x6 r0_7) = W0
  generalize hB0 : k0_pay9 (View.ld x7 r0_4) = B0
  generalize hV0 : k0_pay10 (View.ld x8 r0_7) = V0
  generalize hC0 : k0_pay11 (View.ld x9 r0_4) = C0
  generalize hN0 : k0_pay12 A0 A2 A01 (View.ld x6 r0_7) (View.ld x7 r0_4) (View.ld x8 r0_7) (View.ld x9 r0_4) = N0
  generalize hM1 : k0_pay13 A1 A2 A01 (View.ld x6 r0_7) (View.ld x7 r0_4) (View.ld x8 r0_7) (View.ld x9 r0_4) = M1
  generalize hN1 : k0_pay14 M1 = N1
  generalize hN2 : k0_pay15 A2 S0 W0 B0 V0 C0 = N2
  generalize hS1 : k0_pay16 A2 S0 W0 B0 V0 C0 N0 M1 = S1
  generalize hW1 : k0_pay17 (View.ld x6 r0_8) = W1
  generalize hB1 : k0_pay18 (View.ld x7 r0_5) = B1
  generalize hV1 : k0_pay19 (View.ld x8 r0_8) = V1
  generalize hC1 : k0_pay20 (View.ld x9 r0_5) = C1
  generalize hH0 : k0_pay21 A2 S0 W0 B0 V0 C0 N0 M1 (View.ld x6 r0_8) (View.ld x7 r0_5) = H0
  generalize hV1T : k0_pay22 (View.ld x8 r0_8) = V1T
  generalize hQ0 : k0_pay23 C1 H0 V1T = Q0
  generalize hQ1 : k0_pay24 N1 S1 W1 B1 V1 C1 = Q1
  generalize hQ2 : k0_pay25 N2 S1 W1 B1 V1 C1 = Q2
  generalize hS2 : k0_pay26 N1 N2 S1 W1 B1 V1 C1 H0 V1T = S2
  generalize hW2 : k0_pay27 (View.ld x6 r0_9) = W2
  generalize hB2 : k0_pay28 (View.ld x7 r0_6) = B2
  generalize hV2 : k0_pay29 (View.ld x8 r0_9) = V2
  generalize hC2 : k0_pay30 (View.ld x9 r0_6) = C2
  generalize hR0 : k0_pay31 Q0 S2 W2 B2 (View.ld x8 r0_9) (View.ld x9 r0_6) = R0
  generalize hR1 : k0_pay32 Q1 S2 W2 B2 (View.ld x8 r0_9) (View.ld x9 r0_6) = R1
  generalize hM2 : k0_pay33 Q2 S2 W2 B2 = M2
  -- the encoder, the start nodes and their total
  have e : row (k0_pay2 x0 x1 x2 x3 x4) r = enc P xr := by rw [pay2_row]; rfl
  have a0 : row A0 r = nodes0 P xr 0 := by rw [← hA0, pay3_row, e, ld_row0]; rfl
  have a1 : row A1 r = nodes0 P xr 1 := by rw [← hA1, pay4_row, e, ld_row1]; rfl
  have a2 : row A2 r = nodes0 P xr 2 := by rw [← hA2, pay5_row, e, ld_row2]; rfl
  have a01 : row A01 r = fun o => nodes0 P xr 0 o + nodes0 P xr 1 o := by
    rw [← hA01, pay6_row, hA0, hA1, a0, a1]
  have s0 : row S0 r = total (nodes0 P xr) := by rw [← hS0, pay7_row, a01, a2]; rfl
  -- round 0: its weights, then the three nodes and their total
  have w0 : wmat W0 = P.g1 0 := by rw [← hW0, pay8_wmat, ld_slab0]; rfl
  have b0 : brow B0 = P.c1 0 := by rw [← hB0, pay9_eq, ld_row0]; rfl
  have v0 : wmat V0 = P.g2 0 := by rw [← hV0, pay10_wmat, ld_slab0]; rfl
  have c0 : brow C0 = P.c2 0 := by rw [← hC0, pay11_eq, ld_row0]; rfl
  have n0 : row N0 r = roundAt P 0 (nodes0 P xr) 0 := by
    rw [← hN0, pay12_row, a0, a2, a01, ld_slab0, ld_row0, ld_slab0, ld_row0]; rfl
  have m1 : relu (row M1 r) = roundAt P 0 (nodes0 P xr) 1 := by
    rw [← hM1, pay13_row, a1, a2, a01, ld_slab0, ld_row0, ld_slab0, ld_row0]; rfl
  have n1 : row N1 r = roundAt P 0 (nodes0 P xr) 1 := by rw [← hN1, pay14_row, m1]
  have n2 : row N2 r = roundAt P 0 (nodes0 P xr) 2 := by rw [← hN2, pay15_row, a2, s0, w0, b0, v0, c0]; rfl
  have s1 : row S1 r = total (roundAt P 0 (nodes0 P xr)) := by rw [← hS1, pay16_row, hN1, hN2, n0, n1, n2]; rfl
  -- round 1
  have w1 : wmat W1 = P.g1 1 := by rw [← hW1, pay17_wmat, ld_slab1]; rfl
  have b1 : brow B1 = P.c1 1 := by rw [← hB1, pay18_eq, ld_row1]; rfl
  have v1 : wmat V1 = P.g2 1 := by rw [← hV1, pay19_wmat, ld_slab1]; rfl
  have c1 : brow C1 = P.c2 1 := by rw [← hC1, pay20_eq, ld_row1]; rfl
  have v1t : wmatT V1T = P.g2 1 := by rw [← hV1T, pay22_wmatT, ld_slab1]; rfl
  have h0 : row H0 r = half (P.g1 1) (P.c1 1) (roundAt P 0 (nodes0 P xr)) 0 := by
    rw [← hH0, pay21_row, hS1, n0, s1, ld_slab1, ld_row1]; rfl
  have q0 : row Q0 r = roundAt P 1 (roundAt P 0 (nodes0 P xr)) 0 := by rw [← hQ0, pay23_row, v1t, c1, h0]; rfl
  have q1 : row Q1 r = roundAt P 1 (roundAt P 0 (nodes0 P xr)) 1 := by rw [← hQ1, pay24_row, n1, s1, w1, b1, v1, c1]; rfl
  have q2 : row Q2 r = roundAt P 1 (roundAt P 0 (nodes0 P xr)) 2 := by rw [← hQ2, pay25_row, n2, s1, w1, b1, v1, c1]; rfl
  have s2 : row S2 r = total (roundAt P 1 (roundAt P 0 (nodes0 P xr))) := by rw [← hS2, pay26_row, hQ0, hQ1, hQ2, q0, q1, q2]; rfl
  -- round 2, node 2 up to its first layer
  have w2 : wmat W2 = P.g1 2 := by rw [← hW2, pay27_wmat, ld_slab2]; rfl
  have b2 : brow B2 = P.c1 2 := by rw [← hB2, pay28_eq, ld_row2]; rfl
  have v2 : wmat V2 = P.g2 2 := by rw [← hV2, pay29_wmat, ld_slab2]; rfl
  have c2 : brow C2 = P.c2 2 := by rw [← hC2, pay30_eq, ld_row2]; rfl
  have r0 : row R0 r = roundAt P 2 (roundAt P 1 (roundAt P 0 (nodes0 P xr))) 0 := by
    rw [← hR0, pay31_row, q0, s2, w2, b2, ld_slab2, ld_row2]; rfl
  have r1 : row R1 r = roundAt P 2 (roundAt P 1 (roundAt P 0 (nodes0 P xr))) 1 := by
    rw [← hR1, pay32_row, q1, s2, w2, b2, ld_slab2, ld_row2]; rfl
  have m2 : row M2 r = dense (P.g1 2) (P.c1 2) (mix (roundAt P 1 (roundAt P 0 (nodes0 P xr))) 2) := by
    rw [← hM2, pay33_row, q2, s2, w2, b2]; rfl
  -- the decoder: column j of the stored value is node j's number
  match j with
  | ⟨0, _⟩ => exact (pay1_col0 r V2 C2 R0 R1 M2 x10 x11).trans (by rw [r0]; rfl)
  | ⟨1, _⟩ => exact (pay1_col1 r V2 C2 R0 R1 M2 x10 x11).trans (by rw [r1]; rfl)
  | ⟨2, _⟩ => exact (pay1_col2 r V2 C2 R0 R1 M2 x10 x11).trans (by rw [m2, v2, c2]; rfl)

end Cert.Gnn

end
-- ==== Proof.KernelArray.lean ====
/-
  From the block each grid point writes back to the whole result array.

  The grid has 32 points; point t stages rows 1024·t … 1024·t + 1023 of the input and writes back the same rows of the
  result, all three columns; every weight window stages its whole array at every point (the two encoder biases and the
  decoder bias through a reshape made before the call). So the block point t writes is the restriction to those rows of ONE
  whole-array function of the arguments, `result`: row b of the result is the row function of row b of the input.
  The 32 blocks tile the result array, hence after the run the array is `result`.
-/
import proofs.«135949_j54657753809375_1_alg».proof.Proof.KernelRow
import proofs.«135949_j54657753809375_1_alg».proof.Proof.Gen.KernelIdeal.Value
import Idealize.ShloMosaic.Lib.Pipeline.Value
import Idealize.ShloMosaic.Lib.StableHlo.Run
import Idealize.ShloMosaic.Lib.ValueLayout
import Idealize.ShloMosaic.Lib.Tactic

noncomputable section

namespace Cert.Gnn.KernelArray

open Cert.Gnn Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The weights, read off the argument arrays of core `c`. -/
def weights (c : Dev nD) : Params :=
  paramsOf (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The result array as one function of the argument arrays: row `b`, node `j` is the row function of input row `b`. -/
def result (c : Dev nD) : S32768x3.Idx → EReal := G (weights m c) (m ((c : Thread nD τ).loc main_arg0))

/-! ## The index maps, decided over the 32 grid points -/

/-- The input block and the output block move together along the rows: both have block index `t` on the row axis. -/
theorem idx_rows : ∀ t : Fin cfg0.N, win0_0.index t (0 : Fin 2) = t.val ∧ win0_0.index t (1 : Fin 2) = 0
    ∧ win0_12.index t (0 : Fin 2) = t.val ∧ win0_12.index t (1 : Fin 2) = 0 :=
  (by decide +kernel : ∀ t : Fin grid0.N, _)

/-- Every weight window stays at block index zero. -/
theorem idx_w1 : ∀ t : Fin cfg0.N, win0_1.index t (0 : Fin 2) = 0 ∧ win0_1.index t (1 : Fin 2) = 0 := (by decide +kernel : ∀ t : Fin grid0.N, _)
theorem idx_w2 : ∀ t : Fin cfg0.N, win0_2.index t (0 : Fin 2) = 0 ∧ win0_2.index t (1 : Fin 2) = 0 := (by decide +kernel : ∀ t : Fin grid0.N, _)
theorem idx_w3 : ∀ t : Fin cfg0.N, win0_3.index t (0 : Fin 2) = 0 ∧ win0_3.index t (1 : Fin 2) = 0 := (by decide +kernel : ∀ t : Fin grid0.N, _)
theorem idx_w4 : ∀ t : Fin cfg0.N, win0_4.index t (0 : Fin 2) = 0 ∧ win0_4.index t (1 : Fin 2) = 0 := (by decide +kernel : ∀ t : Fin grid0.N, _)
theorem idx_w5 : ∀ t : Fin cfg0.N, win0_5.index t (0 : Fin 2) = 0 ∧ win0_5.index t (1 : Fin 2) = 0 := (by decide +kernel : ∀ t : Fin grid0.N, _)
theorem idx_w6 : ∀ t : Fin cfg0.N, win0_6.index t (0 : Fin 3) = 0 ∧ win0_6.index t (1 : Fin 3) = 0 ∧ win0_6.index t (2 : Fin 3) = 0 := (by decide +kernel : ∀ t : Fin grid0.N, _)
theorem idx_w7 : ∀ t : Fin cfg0.N, win0_7.index t (0 : Fin 2) = 0 ∧ win0_7.index t (1 : Fin 2) = 0 := (by decide +kernel : ∀ t : Fin grid0.N, _)
theorem idx_w8 : ∀ t : Fin cfg0.N, win0_8.index t (0 : Fin 3) = 0 ∧ win0_8.index t (1 : Fin 3) = 0 ∧ win0_8.index t (2 : Fin 3) = 0 := (by decide +kernel : ∀ t : Fin grid0.N, _)
theorem idx_w9 : ∀ t : Fin cfg0.N, win0_9.index t (0 : Fin 2) = 0 ∧ win0_9.index t (1 : Fin 2) = 0 := (by decide +kernel : ∀ t : Fin grid0.N, _)
theorem idx_w10 : ∀ t : Fin cfg0.N, win0_10.index t (0 : Fin 2) = 0 ∧ win0_10.index t (1 : Fin 2) = 0 := (by decide +kernel : ∀ t : Fin grid0.N, _)
theorem idx_w11 : ∀ t : Fin cfg0.N, win0_11.index t (0 : Fin 2) = 0 ∧ win0_11.index t (1 : Fin 2) = 0 := (by decide +kernel : ∀ t : Fin grid0.N, _)

theorem t_lt (t : Fin cfg0.N) : t.val < 32 := lt_of_lt_of_eq t.isLt N_0

/-! ## The arrays the region finds: three of them were reshaped by the host before the call -/

/-- The first encoder bias as the region finds it: the argument with a unit axis in front. -/
theorem V_bias0 (c : Dev nD) : (V m c main_v0 : S1x256.Idx → EReal) = shapeCast S1x256 (m ((c : Thread nD τ).loc main_arg2)) shapeCasts_S256_S1x256 := by
  dsimp only [Gen.V, Gen.hostOps0]; after_results; rfl

/-- The second encoder bias as the region finds it. -/
theorem V_bias1 (c : Dev nD) : (V m c main_v1 : S1x256.Idx → EReal) = shapeCast S1x256 (m ((c : Thread nD τ).loc main_arg4)) shapeCasts_S256_S1x256 := by
  dsimp only [Gen.V, Gen.hostOps0]; after_results; rfl

/-- The decoder bias as the region finds it: the one-entry argument as a 1×1 matrix. -/
theorem V_dbias (c : Dev nD) : (V m c main_v2 : S1x1.Idx → EReal) = shapeCast S1x1 (m ((c : Thread nD τ).loc main_arg11)) shapeCasts_S1_S1x1 := by
  dsimp only [Gen.V, Gen.hostOps0]; after_results; rfl

/-! ## Each window's block, read off the array the region finds

A weight window's block at any point is its whole array (block index zero, block size the array's size); the input
window's block at point `t` is rows 1024·t … 1024·t + 1023 of the input. A block's coordinate on an axis is the block
index times the block size plus the coordinate inside the block. -/

theorem blk1 (c : Dev nD) (t : Fin cfg0.N) (y : S256x16.Idx) :
    (iblk m c 1 t : Vec Ideal S256x16 .f32) y = (V m c main_arg1 : S256x16.Idx → EReal) y := by
  have hi := idx_w1 t
  unfold iblk
  rw [View.read_apply]
  show V m c main_arg1 _ = _
  refine congrArg (V m c main_arg1) ?_
  funext a
  apply Fin.ext
  match a with
  | ⟨0, _⟩ => show win0_1.index t (0 : Fin 2) * 256 + 1 * (y 0).val = (y 0).val; rw [hi.1]; omega
  | ⟨1, _⟩ => show win0_1.index t (1 : Fin 2) * 16 + 1 * (y 1).val = (y 1).val; rw [hi.2]; omega

theorem blk2 (c : Dev nD) (t : Fin cfg0.N) (y : S1x256.Idx) :
    (iblk m c 2 t : Vec Ideal S1x256 .f32) y = (V m c main_v0 : S1x256.Idx → EReal) y := by
  have hi := idx_w2 t
  unfold iblk
  rw [View.read_apply]
  show V m c main_v0 _ = _
  refine congrArg (V m c main_v0) ?_
  funext a
  apply Fin.ext
  match a with
  | ⟨0, _⟩ => show win0_2.index t (0 : Fin 2) * 1 + 1 * (y 0).val = (y 0).val; rw [hi.1]; omega
  | ⟨1, _⟩ => show win0_2.index t (1 : Fin 2) * 256 + 1 * (y 1).val = (y 1).val; rw [hi.2]; omega

theorem blk3 (c : Dev nD) (t : Fin cfg0.N) (y : S256x256.Idx) :
    (iblk m c 3 t : Vec Ideal S256x256 .f32) y = (V m c main_arg3 : S256x256.Idx → EReal) y := by
  have hi := idx_w3 t
  unfold iblk
  rw [View.read_apply]
  show V m c main_arg3 _ = _
  refine congrArg (V m c main_arg3) ?_
  funext a
  apply Fin.ext
  match a with
  | ⟨0, _⟩ => show win0_3.index t (0 : Fin 2) * 256 + 1 * (y 0).val = (y 0).val; rw [hi.1]; omega
  | ⟨1, _⟩ => show win0_3.index t (1 : Fin 2) * 256 + 1 * (y 1).val = (y 1).val; rw [hi.2]; omega

theorem blk4 (c : Dev nD) (t : Fin cfg0.N) (y : S1x256.Idx) :
    (iblk m c 4 t : Vec Ideal S1x256 .f32) y = (V m c main_v1 : S1x256.Idx → EReal) y := by
  have hi := idx_w4 t
  unfold iblk
  rw [View.read_apply]
  show V m c main_v1 _ = _
  refine congrArg (V m c main_v1) ?_
  funext a
  apply Fin.ext
  match a with
  | ⟨0, _⟩ => show win0_4.index t (0 : Fin 2) * 1 + 1 * (y 0).val = (y 0).val; rw [hi.1]; omega
  | ⟨1, _⟩ => show win0_4.index t (1 : Fin 2) * 256 + 1 * (y 1).val = (y 1).val; rw [hi.2]; omega

theorem blk5 (c : Dev nD) (t : Fin cfg0.N) (y : S3x256.Idx) :
    (iblk m c 5 t : Vec Ideal S3x256 .f32) y = (V m c main_arg5 : S3x256.Idx → EReal) y := by
  have hi := idx_w5 t
  unfold iblk
  rw [View.read_apply]
  show V m c main_arg5 _ = _
  refine congrArg (V m c main_arg5) ?_
  funext a
  apply Fin.ext
  match a with
  | ⟨0, _⟩ => show win0_5.index t (0 : Fin 2) * 3 + 1 * (y 0).val = (y 0).val; rw [hi.1]; omega
  | ⟨1, _⟩ => show win0_5.index t (1 : Fin 2) * 256 + 1 * (y 1).val = (y 1).val; rw [hi.2]; omega

theorem blk6 (c : Dev nD) (t : Fin cfg0.N) (y : S3x256x256.Idx) :
    (iblk m c 6 t : Vec Ideal S3x256x256 .f32) y = (V m c main_arg6 : S3x256x256.Idx → EReal) y := by
  have hi := idx_w6 t
  unfold iblk
  rw [View.read_apply]
  show V m c main_arg6 _ = _
  refine congrArg (V m c main_arg6) ?_
  funext a
  apply Fin.ext
  match a with
  | ⟨0, _⟩ => show win0_6.index t (0 : Fin 3) * 3 + 1 * (y 0).val = (y 0).val; rw [hi.1]; omega
  | ⟨1, _⟩ => show win0_6.index t (1 : Fin 3) * 256 + 1 * (y 1).val = (y 1).val; rw [hi.2.1]; omega
  | ⟨2, _⟩ => show win0_6.index t (2 : Fin 3) * 256 + 1 * (y 2).val = (y 2).val; rw [hi.2.2]; omega

theorem blk7 (c : Dev nD) (t : Fin cfg0.N) (y : S3x256.Idx) :
    (iblk m c 7 t : Vec Ideal S3x256 .f32) y = (V m c main_arg7 : S3x256.Idx → EReal) y := by
  have hi := idx_w7 t
  unfold iblk
  rw [View.read_apply]
  show V m c main_arg7 _ = _
  refine congrArg (V m c main_arg7) ?_
  funext a
  apply Fin.ext
  match a with
  | ⟨0, _⟩ => show win0_7.index t (0 : Fin 2) * 3 + 1 * (y 0).val = (y 0).val; rw [hi.1]; omega
  | ⟨1, _⟩ => show win0_7.index t (1 : Fin 2) * 256 + 1 * (y 1).val = (y 1).val; rw [hi.2]; omega

theorem blk8 (c : Dev nD) (t : Fin cfg0.N) (y : S3x256x256.Idx) :
    (iblk m c 8 t : Vec Ideal S3x256x256 .f32) y = (V m c main_arg8 : S3x256x256.Idx → EReal) y := by
  have hi := idx_w8 t
  unfold iblk
  rw [View.read_apply]
  show V m c main_arg8 _ = _
  refine congrArg (V m c main_arg8) ?_
  funext a
  apply Fin.ext
  match a with
  | ⟨0, _⟩ => show win0_8.index t (0 : Fin 3) * 3 + 1 * (y 0).val = (y 0).val; rw [hi.1]; omega
  | ⟨1, _⟩ => show win0_8.index t (1 : Fin 3) * 256 + 1 * (y 1).val = (y 1).val; rw [hi.2.1]; omega
  | ⟨2, _⟩ => show win0_8.index t (2 : Fin 3) * 256 + 1 * (y 2).val = (y 2).val; rw [hi.2.2]; omega

theorem blk9 (c : Dev nD) (t : Fin cfg0.N) (y : S3x256.Idx) :
    (iblk m c 9 t : Vec Ideal S3x256 .f32) y = (V m c main_arg9 : S3x256.Idx → EReal) y := by
  have hi := idx_w9 t
  unfold iblk
  rw [View.read_apply]
  show V m c main_arg9 _ = _
  refine congrArg (V m c main_arg9) ?_
  funext a
  apply Fin.ext
  match a with
  | ⟨0, _⟩ => show win0_9.index t (0 : Fin 2) * 3 + 1 * (y 0).val = (y 0).val; rw [hi.1]; omega
  | ⟨1, _⟩ => show win0_9.index t (1 : Fin 2) * 256 + 1 * (y 1).val = (y 1).val; rw [hi.2]; omega

theorem blk10 (c : Dev nD) (t : Fin cfg0.N) (y : S1x256.Idx) :
    (iblk m c 10 t : Vec Ideal S1x256 .f32) y = (V m c main_arg10 : S1x256.Idx → EReal) y := by
  have hi := idx_w10 t
  unfold iblk
  rw [View.read_apply]
  show V m c main_arg10 _ = _
  refine congrArg (V m c main_arg10) ?_
  funext a
  apply Fin.ext
  match a with
  | ⟨0, _⟩ => show win0_10.index t (0 : Fin 2) * 1 + 1 * (y 0).val = (y 0).val; rw [hi.1]; omega
  | ⟨1, _⟩ => show win0_10.index t (1 : Fin 2) * 256 + 1 * (y 1).val = (y 1).val; rw [hi.2]; omega

theorem blk11 (c : Dev nD) (t : Fin cfg0.N) (y : S1x1.Idx) :
    (iblk m c 11 t : Vec Ideal S1x1 .f32) y = (V m c main_v2 : S1x1.Idx → EReal) y := by
  have hi := idx_w11 t
  unfold iblk
  rw [View.read_apply]
  show V m c main_v2 _ = _
  refine congrArg (V m c main_v2) ?_
  funext a
  apply Fin.ext
  match a with
  | ⟨0, _⟩ => show win0_11.index t (0 : Fin 2) * 1 + 1 * (y 0).val = (y 0).val; rw [hi.1]; omega
  | ⟨1, _⟩ => show win0_11.index t (1 : Fin 2) * 1 + 1 * (y 1).val = (y 1).val; rw [hi.2]; omega

/-- The input block at point `t`, row `r`: row 1024·t + r of the input. -/
theorem blk0 (c : Dev nD) (t : Fin cfg0.N) (r : Fin 1024) (k : Fin 16) :
    (iblk m c 0 t : Vec Ideal S1024x16 .f32) (ix2 r k)
      = ((m ((c : Thread nD τ).loc main_arg0)) : S32768x16.Idx → EReal) (ix2 (⟨1024 * t.val + r.val, by have := t_lt t; omega⟩ : Fin 32768) k) := by
  have hi := idx_rows t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t (0 : Fin 2) * 1024 + 1 * r.val = 1024 * t.val + r.val; rw [hi.1]; omega
  | ⟨1, _⟩ => show win0_0.index t (1 : Fin 2) * 16 + 1 * k.val = k.val; rw [hi.2.1]; omega

/-! ## The weights the kernel's blocks hold are the arguments' -/

theorem kparams_blocks (c : Dev nD) (t : Fin cfg0.N) :
    kparams (iblk m c 1 t) (iblk m c 2 t) (iblk m c 3 t) (iblk m c 4 t) (iblk m c 5 t) (iblk m c 6 t) (iblk m c 7 t) (iblk m c 8 t) (iblk m c 9 t) (iblk m c 10 t) (iblk m c 11 t) = weights m c := by
  unfold kparams weights paramsOf
  rw [Params.mk.injEq]
  refine ⟨?_, ?_, ?_, ?_, ?_, ?_, ?_, ?_, ?_, ?_, ?_⟩
  · exact funext fun o => funext fun k => (blk1 m c t (ix2 o k)).trans (congrFun (V_main_arg1 m c) (ix2 o k))
  · exact funext fun o => (blk2 m c t (ix2 (0 : Fin 1) o)).trans
      ((congrFun (V_bias0 m c) (ix2 (0 : Fin 1) o)).trans (shapeCast_a_1a_apply _ _ (0 : Fin 1) o))
  · exact funext fun o => funext fun k => (blk3 m c t (ix2 o k)).trans (congrFun (V_main_arg3 m c) (ix2 o k))
  · exact funext fun o => (blk4 m c t (ix2 (0 : Fin 1) o)).trans
      ((congrFun (V_bias1 m c) (ix2 (0 : Fin 1) o)).trans (shapeCast_a_1a_apply _ _ (0 : Fin 1) o))
  · exact funext fun j => funext fun o => (blk5 m c t (ix2 j o)).trans (congrFun (V_main_arg5 m c) (ix2 j o))
  · exact funext fun l => funext fun o => funext fun k => (blk6 m c t (ix3 l o k)).trans (congrFun (V_main_arg6 m c) (ix3 l o k))
  · exact funext fun l => funext fun o => (blk7 m c t (ix2 l o)).trans (congrFun (V_main_arg7 m c) (ix2 l o))
  · exact funext fun l => funext fun o => funext fun k => (blk8 m c t (ix3 l o k)).trans (congrFun (V_main_arg8 m c) (ix3 l o k))
  · exact funext fun l => funext fun o => (blk9 m c t (ix2 l o)).trans (congrFun (V_main_arg9 m c) (ix2 l o))
  · exact funext fun k => (blk10 m c t (ix2 (0 : Fin 1) k)).trans (congrFun (V_main_arg10 m c) (ix2 (0 : Fin 1) k))
  · exact (blk11 m c t (ix2 (0 : Fin 1) (0 : Fin 1))).trans
      ((congrFun (V_dbias m c) (ix2 (0 : Fin 1) (0 : Fin 1))).trans (shapeCast_a_1a_apply _ _ (0 : Fin 1) (0 : Fin 1)))

/-! ## What point `t` writes back is block `t` of `result` -/

/-- The body's stored value at any index of the output block, by its two coordinates. -/
theorem out_at (x0 : Vec Ideal S1024x16 .f32) (x1 : Vec Ideal S256x16 .f32) (x2 : Vec Ideal S1x256 .f32) (x3 : Vec Ideal S256x256 .f32)
    (x4 : Vec Ideal S1x256 .f32) (x5 : Vec Ideal S3x256 .f32) (x6 : Vec Ideal S3x256x256 .f32) (x7 : Vec Ideal S3x256 .f32)
    (x8 : Vec Ideal S3x256x256 .f32) (x9 : Vec Ideal S3x256 .f32) (x10 : Vec Ideal S1x256 .f32) (x11 : Vec Ideal S1x1 .f32)
    (y : S1024x3.Idx) :
    out0_12 (F := Ideal) x0 x1 x2 x3 x4 x5 x6 x7 x8 x9 x10 x11 y
      = rowSpec (kparams x1 x2 x3 x4 x5 x6 x7 x8 x9 x10 x11) (fun k => x0 (ix2 (y 0) k)) (y 1) := by
  exact (congrArg (out0_12 (F := Ideal) x0 x1 x2 x3 x4 x5 x6 x7 x8 x9 x10 x11) (eq_ix2 y)).trans
    (out_row x0 x1 x2 x3 x4 x5 x6 x7 x8 x9 x10 x11 (y 0) (y 1))

theorem flushed_eq (c : Dev nD) (t : Fin cfg0.N) :
    (dats m 0 c).flushed 12 t = ((cfg0.win 12).blk t).view.read (Elt Ideal) (result m c) := by
  rw [Cert.KernelIdeal.Value.flushed12]
  funext y
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = result m c (((cfg0.win 12).blk t).view.emb y)
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y).trans ?_
  rw [kparams_blocks m c t]
  have hi := idx_rows t
  have hy0 : (y 0).val < 1024 := (y 0).isLt
  have he : ((cfg0.win 12).blk t).view.emb y
      = ix2 (⟨1024 * t.val + (y 0).val, by have := t_lt t; omega⟩ : Fin 32768) (y 1) := by
    funext a
    apply Fin.ext
    match a with
    | ⟨0, _⟩ => show win0_12.index t (0 : Fin 2) * 1024 + 1 * (y 0).val = 1024 * t.val + (y 0).val; rw [hi.2.2.1]; omega
    | ⟨1, _⟩ => show win0_12.index t (1 : Fin 2) * 3 + 1 * (y 1).val = (y 1).val; rw [hi.2.2.2]; omega
  rw [he]
  exact congrArg (fun xr => rowSpec (weights m c) xr (y 1)) (funext fun k => blk0 m c t (y 0) k)

/-! ## The 32 blocks tile the result array -/

/-- An index of the array is in point `t`'s block iff each coordinate is in the block's range on its axis. -/
theorem mem_blk (t : Fin cfg0.N) (i : S32768x3.Idx) :
    i ∈ ((cfg0.win 12).blk t).view.set ↔ ∀ a : Fin 2, win0_12.index t a * S1024x3.size a ≤ (i a).val ∧ (i a).val < win0_12.index t a * S1024x3.size a + S1024x3.size a := by
  show i ∈ ((View.whole main_v3).slice (win0_12.rect t)).set ↔ _
  rw [View.set_slice_whole, Rect.mem_set_unit]
  exact Iff.rfl

/-- Row `b` lies in the block of point `b / 1024`. -/
theorem cover (i : S32768x3.Idx) : ∃ t : Fin cfg0.N, (cfg0.win 12).flush t = true ∧ i ∈ ((cfg0.win 12).blk t).view.set := by
  have hi0 : (i 0).val < 32768 := (i 0).isLt
  have hi1 : (i 1).val < 3 := (i 1).isLt
  have hN : cfg0.N = 32 := N_0
  have hlt : (i 0).val / 1024 < cfg0.N := by rw [hN]; omega
  have ht := idx_rows ⟨(i 0).val / 1024, hlt⟩
  refine ⟨⟨(i 0).val / 1024, hlt⟩, flush0_12 _, ?_⟩
  rw [mem_blk]
  intro a
  match a with
  | ⟨0, _⟩ =>
    show win0_12.index ⟨(i 0).val / 1024, hlt⟩ (0 : Fin 2) * 1024 ≤ (i 0).val ∧ (i 0).val < win0_12.index ⟨(i 0).val / 1024, hlt⟩ (0 : Fin 2) * 1024 + 1024
    rw [ht.2.2.1]
    show (i 0).val / 1024 * 1024 ≤ (i 0).val ∧ (i 0).val < (i 0).val / 1024 * 1024 + 1024
    omega
  | ⟨1, _⟩ =>
    show win0_12.index ⟨(i 0).val / 1024, hlt⟩ (1 : Fin 2) * 3 ≤ (i 1).val ∧ (i 1).val < win0_12.index ⟨(i 0).val / 1024, hlt⟩ (1 : Fin 2) * 3 + 3
    rw [ht.2.2.2]
    omega

/-- After the run the result array is `result`. -/
theorem final (c : Dev nD) : (dats m 0 c).arrAt 12 cfg0.N = result m c :=
  (dats m 0 c).arrAt_eq_of_cover 12 (result m c) (fun t _ => flushed_eq m c t) cover

/-! ## The run, read -/

/-- The kernel's run: the result array ends at `result`, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩)
    (Cert.KernelIdeal.Value.run_blocks m ρ)

end Cert.Gnn.KernelArray

end
-- ==== Proof.RefIndex.lean ====
/-
  Where the reference's stages read their operands, in coordinates.

  Row b of the batch, node j of the three, feature o of the 256.  A contraction over the feature axis reads its left
  operand along the same row (and node) at feature k, and its right operand at (o, k) or (k, o), whichever way the
  weight matrix lies; the sum over the node axis reads the three nodes of the same row and feature; a value spread along
  the node axis is read where the node is forgotten; the last reshape only drops a unit axis.  Each equation below says
  that the generated index function, applied to an index given by its coordinates, is the index given by the
  coordinates it reads.
-/
import proofs.«135949_j54657753809375_1_alg».proof.Proof.Gen.ReferenceIdeal.Read
import Idealize.ShloMosaic.Lib.ValueIdx

noncomputable section

namespace Cert.Gnn.Ref

open Idealize.ShloMosaic Idealize.ShloMosaic.ValueIdx Cert.ReferenceIdeal Cert.ReferenceIdeal.Gen Cert.ReferenceIdeal.Read

/-! ## The encoder's two contractions: x (b, k) against W₀ᵀ (k, o), then the hidden row (b, k) against W₁ᵀ (k, o) -/

theorem lidx_v1 (b : Fin 32768) (o : Fin 256) (k : Fin 16) : lidx_main_v1 (ix2 b o) k = ix2 b k := by
  funext a; match a with | ⟨0, _⟩ => rfl | ⟨1, _⟩ => rfl
theorem ridx_v1 (b : Fin 32768) (o : Fin 256) (k : Fin 16) : ridx_main_v1 (ix2 b o) k = ix2 k o := by
  funext a; match a with | ⟨0, _⟩ => rfl | ⟨1, _⟩ => rfl
theorem lidx_v7 (b : Fin 32768) (o k : Fin 256) : lidx_main_v7 (ix2 b o) k = ix2 b k := by
  funext a; match a with | ⟨0, _⟩ => rfl | ⟨1, _⟩ => rfl
theorem ridx_v7 (b : Fin 32768) (o k : Fin 256) : ridx_main_v7 (ix2 b o) k = ix2 k o := by
  funext a; match a with | ⟨0, _⟩ => rfl | ⟨1, _⟩ => rfl

/-! ## The encoding spread over the three nodes: node j of row b reads the encoding of row b -/

theorem idx_v15_v13 (b : Fin 32768) (j : Fin 3) (o : Fin 256) :
    idx_main_v13 (idx_main_v15 (ix3 b j o)) = ix2 b o := by
  funext a; match a with | ⟨0, _⟩ => rfl | ⟨1, _⟩ => rfl

/-! ## The first round: the node sum, the sum spread back over the nodes, and the two contractions with (o, k) weights -/

theorem idx_v17 (b : Fin 32768) (o : Fin 256) (k : Fin 3) : idx_main_v17 (ix2 b o) k = ix3 b k o := by
  funext a; match a with | ⟨0, _⟩ => rfl | ⟨1, _⟩ => rfl | ⟨2, _⟩ => rfl
theorem idx_v19_v18 (b : Fin 32768) (j : Fin 3) (o : Fin 256) :
    idx_main_v18 (idx_main_v19 (ix3 b j o)) = ix2 b o := by
  funext a; match a with | ⟨0, _⟩ => rfl | ⟨1, _⟩ => rfl
theorem lidx_v24 (b : Fin 32768) (j : Fin 3) (o k : Fin 256) : lidx_main_v24 (ix3 b j o) k = ix3 b j k := by
  funext a; match a with | ⟨0, _⟩ => rfl | ⟨1, _⟩ => rfl | ⟨2, _⟩ => rfl
theorem ridx_v24 (b : Fin 32768) (j : Fin 3) (o k : Fin 256) : ridx_main_v24 (ix3 b j o) k = ix2 o k := by
  funext a; match a with | ⟨0, _⟩ => rfl | ⟨1, _⟩ => rfl
theorem lidx_v33 (b : Fin 32768) (j : Fin 3) (o k : Fin 256) : lidx_main_v33 (ix3 b j o) k = ix3 b j k := by
  funext a; match a with | ⟨0, _⟩ => rfl | ⟨1, _⟩ => rfl | ⟨2, _⟩ => rfl
theorem ridx_v33 (b : Fin 32768) (j : Fin 3) (o k : Fin 256) : ridx_main_v33 (ix3 b j o) k = ix2 o k := by
  funext a; match a with | ⟨0, _⟩ => rfl | ⟨1, _⟩ => rfl

/-! ## The second round: the same reads, one round later -/

theorem idx_v40 (b : Fin 32768) (o : Fin 256) (k : Fin 3) : idx_main_v40 (ix2 b o) k = ix3 b k o := by
  funext a; match a with | ⟨0, _⟩ => rfl | ⟨1, _⟩ => rfl | ⟨2, _⟩ => rfl
theorem idx_v42_v41 (b : Fin 32768) (j : Fin 3) (o : Fin 256) :
    idx_main_v41 (idx_main_v42 (ix3 b j o)) = ix2 b o := by
  funext a; match a with | ⟨0, _⟩ => rfl | ⟨1, _⟩ => rfl
theorem lidx_v47 (b : Fin 32768) (j : Fin 3) (o k : Fin 256) : lidx_main_v47 (ix3 b j o) k = ix3 b j k := by
  funext a; match a with | ⟨0, _⟩ => rfl | ⟨1, _⟩ => rfl | ⟨2, _⟩ => rfl
theorem ridx_v47 (b : Fin 32768) (j : Fin 3) (o k : Fin 256) : ridx_main_v47 (ix3 b j o) k = ix2 o k := by
  funext a; match a with | ⟨0, _⟩ => rfl | ⟨1, _⟩ => rfl
theorem lidx_v56 (b : Fin 32768) (j : Fin 3) (o k : Fin 256) : lidx_main_v56 (ix3 b j o) k = ix3 b j k := by
  funext a; match a with | ⟨0, _⟩ => rfl | ⟨1, _⟩ => rfl | ⟨2, _⟩ => rfl
theorem ridx_v56 (b : Fin 32768) (j : Fin 3) (o k : Fin 256) : ridx_main_v56 (ix3 b j o) k = ix2 o k := by
  funext a; match a with | ⟨0, _⟩ => rfl | ⟨1, _⟩ => rfl

/-! ## The third round -/

theorem idx_v63 (b : Fin 32768) (o : Fin 256) (k : Fin 3) : idx_main_v63 (ix2 b o) k = ix3 b k o := by
  funext a; match a with | ⟨0, _⟩ => rfl | ⟨1, _⟩ => rfl | ⟨2, _⟩ => rfl
theorem idx_v65_v64 (b : Fin 32768) (j : Fin 3) (o : Fin 256) :
    idx_main_v64 (idx_main_v65 (ix3 b j o)) = ix2 b o := by
  funext a; match a with | ⟨0, _⟩ => rfl | ⟨1, _⟩ => rfl
theorem lidx_v70 (b : Fin 32768) (j : Fin 3) (o k : Fin 256) : lidx_main_v70 (ix3 b j o) k = ix3 b j k := by
  funext a; match a with | ⟨0, _⟩ => rfl | ⟨1, _⟩ => rfl | ⟨2, _⟩ => rfl
theorem ridx_v70 (b : Fin 32768) (j : Fin 3) (o k : Fin 256) : ridx_main_v70 (ix3 b j o) k = ix2 o k := by
  funext a; match a with | ⟨0, _⟩ => rfl | ⟨1, _⟩ => rfl
theorem lidx_v79 (b : Fin 32768) (j : Fin 3) (o k : Fin 256) : lidx_main_v79 (ix3 b j o) k = ix3 b j k := by
  funext a; match a with | ⟨0, _⟩ => rfl | ⟨1, _⟩ => rfl | ⟨2, _⟩ => rfl
theorem ridx_v79 (b : Fin 32768) (j : Fin 3) (o k : Fin 256) : ridx_main_v79 (ix3 b j o) k = ix2 o k := by
  funext a; match a with | ⟨0, _⟩ => rfl | ⟨1, _⟩ => rfl

/-! ## The decoder: one output column, so the contraction's right operand is the single row of the decoder's matrix -/

theorem lidx_v86 (b : Fin 32768) (j : Fin 3) (k : Fin 256) : lidx_main_v86 (ix3 b j (0 : Fin 1)) k = ix3 b j k := by
  funext a; match a with | ⟨0, _⟩ => rfl | ⟨1, _⟩ => rfl | ⟨2, _⟩ => rfl
theorem ridx_v86 (b : Fin 32768) (j : Fin 3) (k : Fin 256) :
    ridx_main_v86 (ix3 b j (0 : Fin 1)) k = ix2 (0 : Fin 1) k := by
  funext a; match a with | ⟨0, _⟩ => rfl | ⟨1, _⟩ => rfl

/-- The last reshape [32768, 3, 1] → [32768, 3]: position 3 b + j of the flattened array is (b, j, 0). -/
theorem idx_v90 (b : Fin 32768) (j : Fin 3) : idx_main_v90 (ix2 b j) = ix3 b j (0 : Fin 1) := by
  funext a
  refine Fin.ext ?_
  have hb := b.isLt
  have hj := j.isLt
  match a with
  | ⟨0, _⟩ => show (b.val * 3 + j.val) / 3 = b.val; omega
  | ⟨1, _⟩ => show (b.val * 3 + j.val) / 1 % 3 = j.val; omega
  | ⟨2, _⟩ => rfl

end Cert.Gnn.Ref

end
-- ==== Proof.RefConstants.lean ====
/-
  The weights, the biases and the zeros, as the reference's stages hold them.

  Before a weight matrix meets its contraction the reference transposes it (the encoder) or cuts one round's slab out of
  the stack and drops the unit axis (the rounds); a bias is cut out likewise and spread over rows and nodes; the
  rectifier compares against a zero spread over the whole array, and the node sum starts from a scalar zero.  Read at
  coordinates, each of these stages is one entry of an argument array, or the number 0.
-/
import proofs.«135949_j54657753809375_1_alg».proof.Proof.Gen.ReferenceIdeal.Read
import Idealize.ShloMosaic.Lib.ValueIdx
import Idealize.ShloMosaic.PureOps.Ideal.Laws

noncomputable section

namespace Cert.Gnn.Ref

open Idealize.ShloMosaic Idealize.ShloMosaic.ValueIdx Cert.ReferenceIdeal Cert.ReferenceIdeal.Gen Cert.ReferenceIdeal.Read

/-! ## The encoder's weights and biases -/

/-- The first weight matrix transposed: entry (k, o) of the transpose is entry (o, k) of the matrix. -/
theorem w0_at (a1 : (⟨S256x16, .f32⟩ : BufTy).Contents (Elt Ideal)) (k : Fin 16) (o : Fin 256) :
    val_main_v0 (F := Ideal) a1 (ix2 k o) = a1 (ix2 o k) := by
  rw [val_main_v0_apply]
  exact congrArg a1 (funext fun a => by match a with | ⟨0, _⟩ => rfl | ⟨1, _⟩ => rfl)

/-- The first bias spread over the rows. -/
theorem b0_at (a2 : (⟨S256, .f32⟩ : BufTy).Contents (Elt Ideal)) (b : Fin 32768) (o : Fin 256) :
    val_main_v3 (F := Ideal) a2 (ix2 b o) = a2 (ix1 o) := by
  rw [val_main_v3_apply, val_main_v2_apply]
  exact congrArg a2 (funext fun a => by match a with | ⟨0, _⟩ => rfl)

/-- The second weight matrix transposed. -/
theorem w1_at (a3 : (⟨S256x256, .f32⟩ : BufTy).Contents (Elt Ideal)) (k o : Fin 256) :
    val_main_v6 (F := Ideal) a3 (ix2 k o) = a3 (ix2 o k) := by
  rw [val_main_v6_apply]
  exact congrArg a3 (funext fun a => by match a with | ⟨0, _⟩ => rfl | ⟨1, _⟩ => rfl)

/-- The second bias spread over the rows. -/
theorem b1_at (a4 : (⟨S256, .f32⟩ : BufTy).Contents (Elt Ideal)) (b : Fin 32768) (o : Fin 256) :
    val_main_v9 (F := Ideal) a4 (ix2 b o) = a4 (ix1 o) := by
  rw [val_main_v9_apply, val_main_v8_apply]
  exact congrArg a4 (funext fun a => by match a with | ⟨0, _⟩ => rfl)

/-- The nodes' initial vectors spread over the rows. -/
theorem init_at (a5 : (⟨S3x256, .f32⟩ : BufTy).Contents (Elt Ideal)) (b : Fin 32768) (j : Fin 3) (o : Fin 256) :
    val_main_v14 (F := Ideal) a5 (ix3 b j o) = a5 (ix2 j o) := by
  rw [val_main_v14_apply, val_main_v12_apply]
  exact congrArg a5 (funext fun a => by match a with | ⟨0, _⟩ => rfl | ⟨1, _⟩ => rfl)

/-! ## The rounds' first-layer weights: slab l of the stack, the unit axis dropped

Position 256 o + k of the flattened slab is its entry (o, k). -/

theorem g1_at_0 (a6 : (⟨S3x256x256, .f32⟩ : BufTy).Contents (Elt Ideal)) (o k : Fin 256) :
    val_main_v23 (F := Ideal) a6 (ix2 o k) = a6 (ix3 (0 : Fin 3) o k) := by
  rw [val_main_v23_apply, val_main_v22_apply]
  refine congrArg a6 (funext fun a => Fin.ext ?_)
  have ho := o.isLt
  have hk := k.isLt
  match a with
  | ⟨0, _⟩ => rfl
  | ⟨1, _⟩ => show (o.val * 256 + k.val) / 256 % 256 = o.val; omega
  | ⟨2, _⟩ => show (o.val * 256 + k.val) % 256 = k.val; omega

theorem g1_at_1 (a6 : (⟨S3x256x256, .f32⟩ : BufTy).Contents (Elt Ideal)) (o k : Fin 256) :
    val_main_v46 (F := Ideal) a6 (ix2 o k) = a6 (ix3 (1 : Fin 3) o k) := by
  rw [val_main_v46_apply, val_main_v45_apply]
  refine congrArg a6 (funext fun a => Fin.ext ?_)
  have ho := o.isLt
  have hk := k.isLt
  match a with
  | ⟨0, _⟩ => rfl
  | ⟨1, _⟩ => show (o.val * 256 + k.val) / 256 % 256 = o.val; omega
  | ⟨2, _⟩ => show (o.val * 256 + k.val) % 256 = k.val; omega

theorem g1_at_2 (a6 : (⟨S3x256x256, .f32⟩ : BufTy).Contents (Elt Ideal)) (o k : Fin 256) :
    val_main_v69 (F := Ideal) a6 (ix2 o k) = a6 (ix3 (2 : Fin 3) o k) := by
  rw [val_main_v69_apply, val_main_v68_apply]
  refine congrArg a6 (funext fun a => Fin.ext ?_)
  have ho := o.isLt
  have hk := k.isLt
  match a with
  | ⟨0, _⟩ => rfl
  | ⟨1, _⟩ => show (o.val * 256 + k.val) / 256 % 256 = o.val; omega
  | ⟨2, _⟩ => show (o.val * 256 + k.val) % 256 = k.val; omega

/-! ## The rounds' first-layer biases: row l of the stack, spread over rows and nodes -/

theorem c1_at_0 (a7 : (⟨S3x256, .f32⟩ : BufTy).Contents (Elt Ideal)) (b : Fin 32768) (j : Fin 3) (o : Fin 256) :
    val_main_v28 (F := Ideal) a7 (ix3 b j o) = a7 (ix2 (0 : Fin 3) o) := by
  rw [val_main_v28_apply, val_main_v27_apply, val_main_v26_apply, val_main_v25_apply]
  refine congrArg a7 (funext fun a => Fin.ext ?_)
  have ho := o.isLt
  match a with
  | ⟨0, _⟩ => rfl
  | ⟨1, _⟩ => show o.val % 256 = o.val; omega

theorem c1_at_1 (a7 : (⟨S3x256, .f32⟩ : BufTy).Contents (Elt Ideal)) (b : Fin 32768) (j : Fin 3) (o : Fin 256) :
    val_main_v51 (F := Ideal) a7 (ix3 b j o) = a7 (ix2 (1 : Fin 3) o) := by
  rw [val_main_v51_apply, val_main_v50_apply, val_main_v49_apply, val_main_v48_apply]
  refine congrArg a7 (funext fun a => Fin.ext ?_)
  have ho := o.isLt
  match a with
  | ⟨0, _⟩ => rfl
  | ⟨1, _⟩ => show o.val % 256 = o.val; omega

theorem c1_at_2 (a7 : (⟨S3x256, .f32⟩ : BufTy).Contents (Elt Ideal)) (b : Fin 32768) (j : Fin 3) (o : Fin 256) :
    val_main_v74 (F := Ideal) a7 (ix3 b j o) = a7 (ix2 (2 : Fin 3) o) := by
  rw [val_main_v74_apply, val_main_v73_apply, val_main_v72_apply, val_main_v71_apply]
  refine congrArg a7 (funext fun a => Fin.ext ?_)
  have ho := o.isLt
  match a with
  | ⟨0, _⟩ => rfl
  | ⟨1, _⟩ => show o.val % 256 = o.val; omega

/-! ## The rounds' second-layer weights -/

theorem g2_at_0 (a8 : (⟨S3x256x256, .f32⟩ : BufTy).Contents (Elt Ideal)) (o k : Fin 256) :
    val_main_v32 (F := Ideal) a8 (ix2 o k) = a8 (ix3 (0 : Fin 3) o k) := by
  rw [val_main_v32_apply, val_main_v31_apply]
  refine congrArg a8 (funext fun a => Fin.ext ?_)
  have ho := o.isLt
  have hk := k.isLt
  match a with
  | ⟨0, _⟩ => rfl
  | ⟨1, _⟩ => show (o.val * 256 + k.val) / 256 % 256 = o.val; omega
  | ⟨2, _⟩ => show (o.val * 256 + k.val) % 256 = k.val; omega

theorem g2_at_1 (a8 : (⟨S3x256x256, .f32⟩ : BufTy).Contents (Elt Ideal)) (o k : Fin 256) :
    val_main_v55 (F := Ideal) a8 (ix2 o k) = a8 (ix3 (1 : Fin 3) o k) := by
  rw [val_main_v55_apply, val_main_v54_apply]
  refine congrArg a8 (funext fun a => Fin.ext ?_)
  have ho := o.isLt
  have hk := k.isLt
  match a with
  | ⟨0, _⟩ => rfl
  | ⟨1, _⟩ => show (o.val * 256 + k.val) / 256 % 256 = o.val; omega
  | ⟨2, _⟩ => show (o.val * 256 + k.val) % 256 = k.val; omega

theorem g2_at_2 (a8 : (⟨S3x256x256, .f32⟩ : BufTy).Contents (Elt Ideal)) (o k : Fin 256) :
    val_main_v78 (F := Ideal) a8 (ix2 o k) = a8 (ix3 (2 : Fin 3) o k) := by
  rw [val_main_v78_apply, val_main_v77_apply]
  refine congrArg a8 (funext fun a => Fin.ext ?_)
  have ho := o.isLt
  have hk := k.isLt
  match a with
  | ⟨0, _⟩ => rfl
  | ⟨1, _⟩ => show (o.val * 256 + k.val) / 256 % 256 = o.val; omega
  | ⟨2, _⟩ => show (o.val * 256 + k.val) % 256 = k.val; omega

/-! ## The rounds' second-layer biases -/

theorem c2_at_0 (a9 : (⟨S3x256, .f32⟩ : BufTy).Contents (Elt Ideal)) (b : Fin 32768) (j : Fin 3) (o : Fin 256) :
    val_main_v37 (F := Ideal) a9 (ix3 b j o) = a9 (ix2 (0 : Fin 3) o) := by
  rw [val_main_v37_apply, val_main_v36_apply, val_main_v35_apply, val_main_v34_apply]
  refine congrArg a9 (funext fun a => Fin.ext ?_)
  have ho := o.isLt
  match a with
  | ⟨0, _⟩ => rfl
  | ⟨1, _⟩ => show o.val % 256 = o.val; omega

theorem c2_at_1 (a9 : (⟨S3x256, .f32⟩ : BufTy).Contents (Elt Ideal)) (b : Fin 32768) (j : Fin 3) (o : Fin 256) :
    val_main_v60 (F := Ideal) a9 (ix3 b j o) = a9 (ix2 (1 : Fin 3) o) := by
  rw [val_main_v60_apply, val_main_v59_apply, val_main_v58_apply, val_main_v57_apply]
  refine congrArg a9 (funext fun a => Fin.ext ?_)
  have ho := o.isLt
  match a with
  | ⟨0, _⟩ => rfl
  | ⟨1, _⟩ => show o.val % 256 = o.val; omega

theorem c2_at_2 (a9 : (⟨S3x256, .f32⟩ : BufTy).Contents (Elt Ideal)) (b : Fin 32768) (j : Fin 3) (o : Fin 256) :
    val_main_v83 (F := Ideal) a9 (ix3 b j o) = a9 (ix2 (2 : Fin 3) o) := by
  rw [val_main_v83_apply, val_main_v82_apply, val_main_v81_apply, val_main_v80_apply]
  refine congrArg a9 (funext fun a => Fin.ext ?_)
  have ho := o.isLt
  match a with
  | ⟨0, _⟩ => rfl
  | ⟨1, _⟩ => show o.val % 256 = o.val; omega

/-! ## The decoder's bias: one number, spread over rows and nodes -/

theorem db_at (a11 : (⟨S1, .f32⟩ : BufTy).Contents (Elt Ideal)) (b : Fin 32768) (j : Fin 3) :
    val_main_v88 (F := Ideal) a11 (ix3 b j (0 : Fin 1)) = a11 (ix1 (0 : Fin 1)) := by
  rw [val_main_v88_apply, val_main_v87_apply]
  exact congrArg a11 (funext fun a => by match a with | ⟨0, _⟩ => rfl)

/-! ## The zeros: what each rectifier compares against, and where each node sum starts

The word 0x00000000 is the real number 0. -/

theorem relu_zero_0 (i : S32768x256.Idx) : val_main_call0_v0 (F := Ideal) i = 0 := by
  rw [val_main_call0_v0_apply, val_main_call0_cst_apply, Ideal.ofBits_def, Ideal.ofBits_zero_f32]
theorem relu_zero_1 (i : S32768x256.Idx) : val_main_call1_v0 (F := Ideal) i = 0 := by
  rw [val_main_call1_v0_apply, val_main_call1_cst_apply, Ideal.ofBits_def, Ideal.ofBits_zero_f32]
theorem relu_zero_2 (i : S32768x3x256.Idx) : val_main_call2_v0 (F := Ideal) i = 0 := by
  rw [val_main_call2_v0_apply, val_main_call2_cst_apply, Ideal.ofBits_def, Ideal.ofBits_zero_f32]
theorem relu_zero_3 (i : S32768x3x256.Idx) : val_main_call3_v0 (F := Ideal) i = 0 := by
  rw [val_main_call3_v0_apply, val_main_call3_cst_apply, Ideal.ofBits_def, Ideal.ofBits_zero_f32]
theorem relu_zero_4 (i : S32768x3x256.Idx) : val_main_call4_v0 (F := Ideal) i = 0 := by
  rw [val_main_call4_v0_apply, val_main_call4_cst_apply, Ideal.ofBits_def, Ideal.ofBits_zero_f32]
theorem relu_zero_5 (i : S32768x3x256.Idx) : val_main_call5_v0 (F := Ideal) i = 0 := by
  rw [val_main_call5_v0_apply, val_main_call5_cst_apply, Ideal.ofBits_def, Ideal.ofBits_zero_f32]
theorem relu_zero_6 (i : S32768x3x256.Idx) : val_main_call6_v0 (F := Ideal) i = 0 := by
  rw [val_main_call6_v0_apply, val_main_call6_cst_apply, Ideal.ofBits_def, Ideal.ofBits_zero_f32]
theorem relu_zero_7 (i : S32768x3x256.Idx) : val_main_call7_v0 (F := Ideal) i = 0 := by
  rw [val_main_call7_v0_apply, val_main_call7_cst_apply, Ideal.ofBits_def, Ideal.ofBits_zero_f32]

theorem sum_zero_0 : val_main_cst (F := Ideal) (Shape.Idx.first h_S_) = 0 := by
  rw [val_main_cst_apply, Ideal.ofBits_def, Ideal.ofBits_zero_f32]
theorem sum_zero_1 : val_main_cst_0 (F := Ideal) (Shape.Idx.first h_S_) = 0 := by
  rw [val_main_cst_0_apply, Ideal.ofBits_def, Ideal.ofBits_zero_f32]
theorem sum_zero_2 : val_main_cst_1 (F := Ideal) (Shape.Idx.first h_S_) = 0 := by
  rw [val_main_cst_1_apply, Ideal.ofBits_def, Ideal.ofBits_zero_f32]

end Cert.Gnn.Ref

end
-- ==== Proof.RefEncoder.lean ====
/-
  The reference's encoder and its three starting nodes, read at row b.

  Two dense layers with a rectifier each take the input's row b (16 numbers) to 256 and again to 256; then node j of
  row b is the encoding plus the node's initial vector.  The reference adds them as  init + enc ; the row function has
  enc + init : the one place where the two differ, by commutativity of the sum.
-/
import proofs.«135949_j54657753809375_1_alg».proof.Proof.Spec
import proofs.«135949_j54657753809375_1_alg».proof.Proof.RefIndex
import proofs.«135949_j54657753809375_1_alg».proof.Proof.RefConstants

noncomputable section

namespace Cert.Gnn.Ref

open Idealize.ShloMosaic Idealize.ShloMosaic.ValueIdx Cert.ReferenceIdeal Cert.ReferenceIdeal.Gen Cert.ReferenceIdeal.Read

variable (a0 : (⟨S32768x16, .f32⟩ : BufTy).Contents (Elt Ideal)) (a1 : (⟨S256x16, .f32⟩ : BufTy).Contents (Elt Ideal))
    (a2 : (⟨S256, .f32⟩ : BufTy).Contents (Elt Ideal)) (a3 : (⟨S256x256, .f32⟩ : BufTy).Contents (Elt Ideal))
    (a4 : (⟨S256, .f32⟩ : BufTy).Contents (Elt Ideal)) (a5 : (⟨S3x256, .f32⟩ : BufTy).Contents (Elt Ideal))
    (a6 : (⟨S3x256x256, .f32⟩ : BufTy).Contents (Elt Ideal)) (a7 : (⟨S3x256, .f32⟩ : BufTy).Contents (Elt Ideal))
    (a8 : (⟨S3x256x256, .f32⟩ : BufTy).Contents (Elt Ideal)) (a9 : (⟨S3x256, .f32⟩ : BufTy).Contents (Elt Ideal))
    (a10 : (⟨S1x256, .f32⟩ : BufTy).Contents (Elt Ideal)) (a11 : (⟨S1, .f32⟩ : BufTy).Contents (Elt Ideal))
    (b : Fin 32768)

/-- The network's weights, read off the argument arrays. -/
local notation "𝒫" => paramsOf a1 a2 a3 a4 a5 a6 a7 a8 a9 a10 a11
/-- Row b of the input. -/
local notation "xr" => (fun k : Fin 16 => a0 (ix2 b k))

/-- After the first layer: entry o of row b is  max (∑ₖ x (b, k) · W₀ (o, k) + b₀ o) 0. -/
theorem hidden_row (o : Fin 256) :
    val_main_v5 (F := Ideal) a0 a1 a2 (ix2 b o) = relu (dense (𝒫).w0 (𝒫).b0 xr) o := by
  -- the rectifier of (the contraction plus the bias); the contraction pairs x (b, k) with W₀ᵀ (k, o) = W₀ (o, k)
  rw [val_main_v5_apply, val_main_v4_apply, val_main_v1_apply, relu_zero_0, b0_at]
  simp only [lidx_v1, ridx_v1, w0_at]
  rfl

/-- After the second layer: row b of the encoder's result is the encoding of the input's row b. -/
theorem enc_row (o : Fin 256) :
    val_main_v11 (F := Ideal) a0 a1 a2 a3 a4 (ix2 b o) = enc (𝒫) xr o := by
  -- the same shape one layer up: the contraction runs over the first layer's row b
  rw [val_main_v11_apply, val_main_v10_apply, val_main_v7_apply, relu_zero_1, b1_at]
  simp only [lidx_v7, ridx_v7, w1_at, hidden_row a0 a1 a2 a3 a4 a5 a6 a7 a8 a9 a10 a11 b]
  rfl

/-- The starting nodes: node j of row b is  init (j, o) + enc (b, o), which is the row function's  enc + init. -/
theorem nodes0_row (j : Fin 3) (o : Fin 256) :
    val_main_v16 (F := Ideal) a0 a1 a2 a3 a4 a5 (ix3 b j o) = nodes0 (𝒫) xr j o := by
  -- the initial vectors spread over the rows, plus the encoding spread over the nodes
  rw [val_main_v16_apply, init_at, val_main_v15_apply, val_main_v13_apply, idx_v15_v13,
    enc_row a0 a1 a2 a3 a4 a5 a6 a7 a8 a9 a10 a11 b, Ideal.addf_def]
  exact add_comm _ _

end Cert.Gnn.Ref

end
-- ==== Proof.RefRounds.lean ====
/-
  The reference's three rounds, read at row b.

  In each round the reference sums the three nodes of a row (starting from 0), spreads the sum back over the nodes,
  subtracts each node to get the sum of its two neighbours, adds the node again, and sends the result through two
  dense layers with a rectifier each, the weight matrices being the round's slabs read as (o, k).  Written for row b
  this is the row function's round applied to the row's three nodes:  0 + (n₀ + n₁ + n₂)  is the total, the rest is the
  same expression on both sides.  The three rounds differ in their weights and in the nodes they start from only.
-/
import proofs.«135949_j54657753809375_1_alg».proof.Proof.RefEncoder

noncomputable section

namespace Cert.Gnn.Ref

open Idealize.ShloMosaic Idealize.ShloMosaic.ValueIdx Cert.ReferenceIdeal Cert.ReferenceIdeal.Gen Cert.ReferenceIdeal.Read

variable (a0 : (⟨S32768x16, .f32⟩ : BufTy).Contents (Elt Ideal)) (a1 : (⟨S256x16, .f32⟩ : BufTy).Contents (Elt Ideal))
    (a2 : (⟨S256, .f32⟩ : BufTy).Contents (Elt Ideal)) (a3 : (⟨S256x256, .f32⟩ : BufTy).Contents (Elt Ideal))
    (a4 : (⟨S256, .f32⟩ : BufTy).Contents (Elt Ideal)) (a5 : (⟨S3x256, .f32⟩ : BufTy).Contents (Elt Ideal))
    (a6 : (⟨S3x256x256, .f32⟩ : BufTy).Contents (Elt Ideal)) (a7 : (⟨S3x256, .f32⟩ : BufTy).Contents (Elt Ideal))
    (a8 : (⟨S3x256x256, .f32⟩ : BufTy).Contents (Elt Ideal)) (a9 : (⟨S3x256, .f32⟩ : BufTy).Contents (Elt Ideal))
    (a10 : (⟨S1x256, .f32⟩ : BufTy).Contents (Elt Ideal)) (a11 : (⟨S1, .f32⟩ : BufTy).Contents (Elt Ideal))
    (b : Fin 32768)

/-- The network's weights, read off the argument arrays. -/
local notation "𝒫" => paramsOf a1 a2 a3 a4 a5 a6 a7 a8 a9 a10 a11
/-- Row b of the input. -/
local notation "xr" => (fun k : Fin 16 => a0 (ix2 b k))
/-- The row's nodes before the first, the second and the third round. -/
local notation "n₀" => nodes0 (𝒫) xr
local notation "n₁" => roundAt (𝒫) 0 (nodes0 (𝒫) xr)
local notation "n₂" => roundAt (𝒫) 1 (roundAt (𝒫) 0 (nodes0 (𝒫) xr))

/-! ## The first round, from the starting nodes -/

/-- The node sum of row b:  0 + (n 0 + n 1 + n 2). -/
theorem total0_row (o : Fin 256) :
    val_main_v17 (F := Ideal) a0 a1 a2 a3 a4 a5 (ix2 b o) = total n₀ o := by
  rw [val_main_v17_apply, sum_zero_0, zero_add, Fin.sum_univ_three]
  simp only [idx_v17, nodes0_row a0 a1 a2 a3 a4 a5 a6 a7 a8 a9 a10 a11 b]
  rfl

/-- What node j's layer reads:  n j + (total − n j). -/
theorem mix0_row (j : Fin 3) (o : Fin 256) :
    val_main_v21 (F := Ideal) a0 a1 a2 a3 a4 a5 (ix3 b j o) = mix n₀ j o := by
  rw [val_main_v21_apply, val_main_v20_apply, val_main_v19_apply, val_main_v18_apply, idx_v19_v18,
    total0_row a0 a1 a2 a3 a4 a5 a6 a7 a8 a9 a10 a11 b, nodes0_row a0 a1 a2 a3 a4 a5 a6 a7 a8 a9 a10 a11 b]
  rfl

/-- The first dense layer and its rectifier, with the round's first slab. -/
theorem half0_row (j : Fin 3) (o : Fin 256) :
    val_main_v30 (F := Ideal) a0 a1 a2 a3 a4 a5 a6 a7 (ix3 b j o) = half ((𝒫).g1 0) ((𝒫).c1 0) n₀ j o := by
  rw [val_main_v30_apply, val_main_v29_apply, val_main_v24_apply, relu_zero_2, c1_at_0]
  simp only [lidx_v24, ridx_v24, g1_at_0, mix0_row a0 a1 a2 a3 a4 a5 a6 a7 a8 a9 a10 a11 b]
  rfl

/-- The second dense layer and its rectifier: the nodes after the first round. -/
theorem round0_row (j : Fin 3) (o : Fin 256) :
    val_main_v39 (F := Ideal) a0 a1 a2 a3 a4 a5 a6 a7 a8 a9 (ix3 b j o) = roundAt (𝒫) 0 n₀ j o := by
  rw [val_main_v39_apply, val_main_v38_apply, val_main_v33_apply, relu_zero_3, c2_at_0]
  simp only [lidx_v33, ridx_v33, g2_at_0, half0_row a0 a1 a2 a3 a4 a5 a6 a7 a8 a9 a10 a11 b]
  rfl

/-! ## The second round, from the first round's nodes -/

theorem total1_row (o : Fin 256) :
    val_main_v40 (F := Ideal) a0 a1 a2 a3 a4 a5 a6 a7 a8 a9 (ix2 b o) = total n₁ o := by
  rw [val_main_v40_apply, sum_zero_1, zero_add, Fin.sum_univ_three]
  simp only [idx_v40, round0_row a0 a1 a2 a3 a4 a5 a6 a7 a8 a9 a10 a11 b]
  rfl

theorem mix1_row (j : Fin 3) (o : Fin 256) :
    val_main_v44 (F := Ideal) a0 a1 a2 a3 a4 a5 a6 a7 a8 a9 (ix3 b j o) = mix n₁ j o := by
  rw [val_main_v44_apply, val_main_v43_apply, val_main_v42_apply, val_main_v41_apply, idx_v42_v41,
    total1_row a0 a1 a2 a3 a4 a5 a6 a7 a8 a9 a10 a11 b, round0_row a0 a1 a2 a3 a4 a5 a6 a7 a8 a9 a10 a11 b]
  rfl

theorem half1_row (j : Fin 3) (o : Fin 256) :
    val_main_v53 (F := Ideal) a0 a1 a2 a3 a4 a5 a6 a7 a8 a9 (ix3 b j o) = half ((𝒫).g1 1) ((𝒫).c1 1) n₁ j o := by
  rw [val_main_v53_apply, val_main_v52_apply, val_main_v47_apply, relu_zero_4, c1_at_1]
  simp only [lidx_v47, ridx_v47, g1_at_1, mix1_row a0 a1 a2 a3 a4 a5 a6 a7 a8 a9 a10 a11 b]
  rfl

theorem round1_row (j : Fin 3) (o : Fin 256) :
    val_main_v62 (F := Ideal) a0 a1 a2 a3 a4 a5 a6 a7 a8 a9 (ix3 b j o) = roundAt (𝒫) 1 n₁ j o := by
  rw [val_main_v62_apply, val_main_v61_apply, val_main_v56_apply, relu_zero_5, c2_at_1]
  simp only [lidx_v56, ridx_v56, g2_at_1, half1_row a0 a1 a2 a3 a4 a5 a6 a7 a8 a9 a10 a11 b]
  rfl

/-! ## The third round, from the second round's nodes -/

theorem total2_row (o : Fin 256) :
    val_main_v63 (F := Ideal) a0 a1 a2 a3 a4 a5 a6 a7 a8 a9 (ix2 b o) = total n₂ o := by
  rw [val_main_v63_apply, sum_zero_2, zero_add, Fin.sum_univ_three]
  simp only [idx_v63, round1_row a0 a1 a2 a3 a4 a5 a6 a7 a8 a9 a10 a11 b]
  rfl

theorem mix2_row (j : Fin 3) (o : Fin 256) :
    val_main_v67 (F := Ideal) a0 a1 a2 a3 a4 a5 a6 a7 a8 a9 (ix3 b j o) = mix n₂ j o := by
  rw [val_main_v67_apply, val_main_v66_apply, val_main_v65_apply, val_main_v64_apply, idx_v65_v64,
    total2_row a0 a1 a2 a3 a4 a5 a6 a7 a8 a9 a10 a11 b, round1_row a0 a1 a2 a3 a4 a5 a6 a7 a8 a9 a10 a11 b]
  rfl

theorem half2_row (j : Fin 3) (o : Fin 256) :
    val_main_v76 (F := Ideal) a0 a1 a2 a3 a4 a5 a6 a7 a8 a9 (ix3 b j o) = half ((𝒫).g1 2) ((𝒫).c1 2) n₂ j o := by
  rw [val_main_v76_apply, val_main_v75_apply, val_main_v70_apply, relu_zero_6, c1_at_2]
  simp only [lidx_v70, ridx_v70, g1_at_2, mix2_row a0 a1 a2 a3 a4 a5 a6 a7 a8 a9 a10 a11 b]
  rfl

/-- The nodes after the third round. -/
theorem round2_row (j : Fin 3) (o : Fin 256) :
    val_main_v85 (F := Ideal) a0 a1 a2 a3 a4 a5 a6 a7 a8 a9 (ix3 b j o) = roundAt (𝒫) 2 n₂ j o := by
  rw [val_main_v85_apply, val_main_v84_apply, val_main_v79_apply, relu_zero_7, c2_at_2]
  simp only [lidx_v79, ridx_v79, g2_at_2, half2_row a0 a1 a2 a3 a4 a5 a6 a7 a8 a9 a10 a11 b]
  rfl

end Cert.Gnn.Ref

end
-- ==== Proof.RefRow.lean ====
/-
  The reference's result, read at (b, j): the row function of the input's row b.

  Stage by stage: the two encoder layers, the three nodes, the three rounds (the sum over the node axis is the
  three-term sum; the contraction over the feature axis is a dense layer with the weight matrix read transposed),
  the decoder, and the final reshape that drops the unit axis.  The stages up to the third round's nodes are read in
  the modules before this one; what is left here is the decoder, a dense layer with a single output column, and the
  reshape.
-/
import proofs.«135949_j54657753809375_1_alg».proof.Proof.RefRounds

noncomputable section

namespace Cert.Gnn

open Idealize.ShloMosaic Idealize.ShloMosaic.ValueIdx Cert.ReferenceIdeal Cert.ReferenceIdeal.Read

/-- The reference's last stage at row b and node j. -/
theorem ref_row (a0 : (⟨S32768x16, .f32⟩ : BufTy).Contents (Elt Ideal)) (a1 : (⟨S256x16, .f32⟩ : BufTy).Contents (Elt Ideal))
    (a2 : (⟨S256, .f32⟩ : BufTy).Contents (Elt Ideal)) (a3 : (⟨S256x256, .f32⟩ : BufTy).Contents (Elt Ideal))
    (a4 : (⟨S256, .f32⟩ : BufTy).Contents (Elt Ideal)) (a5 : (⟨S3x256, .f32⟩ : BufTy).Contents (Elt Ideal))
    (a6 : (⟨S3x256x256, .f32⟩ : BufTy).Contents (Elt Ideal)) (a7 : (⟨S3x256, .f32⟩ : BufTy).Contents (Elt Ideal))
    (a8 : (⟨S3x256x256, .f32⟩ : BufTy).Contents (Elt Ideal)) (a9 : (⟨S3x256, .f32⟩ : BufTy).Contents (Elt Ideal))
    (a10 : (⟨S1x256, .f32⟩ : BufTy).Contents (Elt Ideal)) (a11 : (⟨S1, .f32⟩ : BufTy).Contents (Elt Ideal))
    (b : Fin 32768) (j : Fin 3) :
    Cert.ReferenceIdeal.Read.val_main_v90 (F := Ideal) a0 a1 a2 a3 a4 a5 a6 a7 a8 a9 a10 a11 (ix2 b j)
      = rowSpec (paramsOf a1 a2 a3 a4 a5 a6 a7 a8 a9 a10 a11) (fun k => a0 (ix2 b k)) j := by
  -- entry (b, j) of the result is entry (b, j, 0) of the decoder's output:  ∑ₖ n (b, j, k) · dw (0, k) + db,
  -- where n is the nodes after the third round
  rw [val_main_v90_apply, Ref.idx_v90, val_main_v89_apply, val_main_v86_apply, Ref.db_at]
  simp only [Ref.lidx_v86, Ref.ridx_v86, Ref.round2_row a0 a1 a2 a3 a4 a5 a6 a7 a8 a9 a10 a11 b]
  -- which is the row function's decoder applied to its own third-round nodes
  rfl

end Cert.Gnn

end
-- ==== Proof.lean ====
/-
  A per-sample graph network on the complete graph of three nodes: the kernel against its reference, over the extended reals.

  Both programs compute, for every input row, the same row function (Proof/Spec.lean): two rectified dense layers, the three
  node vectors `e + init j`, three rounds in which node `j` becomes  relu (W₂ · relu (W₁ · (n j + ((n 0 + n 1 + n 2) − n j)) + b₁) + b₂),
  and a one-column decoder per node. The kernel does it for 1024 rows at a time on a grid of 32 points, with every product
  taken after a cast to a shorter float format (the identity on the extended reals) into a zero accumulator; the reference does
  it for all 32768 rows at once with the three nodes as an array axis, summing over that axis for the neighbours' total.
  The two sides differ only in the order of two additions (`init + e` against `e + init`, and `0 + ∑` over the node axis
  against the left-grouped three-term sum), so the agreement needs commutativity and associativity of addition only and never
  that an input is finite.

  Proof/KernelRow.lean reads the kernel's stored block at (r, j) as the row function of the block's row r;
  Proof/KernelArray.lean passes from the 32 blocks to the whole result array and re-states the kernel's run;
  Proof/RefRow.lean reads the reference's last stage at (b, j) as the row function of the input's row b.
  Here: the three frames, and the two runs side by side.
-/
import proofs.«135949_j54657753809375_1_alg».proof.Defs
import proofs.«135949_j54657753809375_1_alg».proof.Proof.Gen.Kernel
import proofs.«135949_j54657753809375_1_alg».proof.Proof.Gen.Kernel.Skeleton
import proofs.«135949_j54657753809375_1_alg».proof.Proof.Gen.Kernel.Launch
import proofs.«135949_j54657753809375_1_alg».proof.Proof.Gen.Kernel.Points
import proofs.«135949_j54657753809375_1_alg».proof.Proof.Gen.Kernel.Frame
import proofs.«135949_j54657753809375_1_alg».proof.Proof.Gen.KernelIdeal
import proofs.«135949_j54657753809375_1_alg».proof.Proof.Gen.KernelIdeal.Skeleton
import proofs.«135949_j54657753809375_1_alg».proof.Proof.Gen.KernelIdeal.Launch
import proofs.«135949_j54657753809375_1_alg».proof.Proof.Gen.KernelIdeal.Points
import proofs.«135949_j54657753809375_1_alg».proof.Proof.Gen.KernelIdeal.Frame
import proofs.«135949_j54657753809375_1_alg».proof.Proof.Gen.ReferenceIdeal
import proofs.«135949_j54657753809375_1_alg».proof.Proof.Gen.Pre_finite_inputs
import proofs.«135949_j54657753809375_1_alg».proof.Proof.Gen.KernelIdeal.Value
import proofs.«135949_j54657753809375_1_alg».proof.Proof.Gen.ReferenceIdeal.Run
import proofs.«135949_j54657753809375_1_alg».proof.Proof.Gen.ReferenceIdeal.Read
import proofs.«135949_j54657753809375_1_alg».proof.Proof.KernelArray
import proofs.«135949_j54657753809375_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The reference's result array, index by index, is the row function of the input's rows with the weights read off the
    arguments: the array the kernel's run ends with. -/
theorem reference_is_result (m : (ℓ : Loc Cert.KernelIdeal.nD Cert.KernelIdeal.τ Cert.KernelIdeal.sig) → Buf (Elt Ideal) ℓ)
    (c : Dev Cert.KernelIdeal.nD) :
    Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    = Cert.Gnn.KernelArray.result m c := by
  funext i
  exact (congrArg (Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (eq_ix2 i)).trans
    (Cert.Gnn.ref_row (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1))

/-- From memories that agree on the arguments both programs run, and both result arrays are the one function `result`. -/
theorem algebraic : Cert.algebraic_KernelIdeal_ReferenceIdeal := by
  intro m ρ m' ρ' _ hagree
  refine ⟨fun c => Cert.Gnn.KernelArray.result m c, Cert.Gnn.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v90_eq, e0, e1, e2, e3, e4, e5, e6, e7, e8, e9, e10, e11]
  exact reference_is_result m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
